-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S256x128 .f32) (main_arg10 : FVec F S256x128 .f32) (main_arg11 : FVec F S128 .f32) (main_v33 : IVec S_ 1) : IVec S_ 1 :=
  let main_v34 : FVec F S256x128 .f32 := Host.absf main_arg9
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S256x128 .f32 := Host.absf main_arg10
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg6 : FVec F S256x256 .f32) (main_arg7 : FVec F S256x256 .f32) (main_arg8 : FVec F S256 .f32) (main_arg9 : FVec F S256x128 .f32) (main_arg10 : FVec F S256x128 .f32) (main_arg11 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_v33

def fn {F : FTy → Type} [FloatOps F] (main_arg0 : FVec F S50000x256 .f32) (main_arg1 : IVec S800000 32) (main_arg2 : IVec S800000 32) (main_arg3 : FVec F S256x256 .f32) (main_arg4 : FVec F S256x256 .f32) (main_arg5 : FVec F S256 .f32) (main_arg6 : FVec F S256x256 .f32) (main_arg7 : FVec F S256x256 .f32) (main_arg8 : FVec F S256 .f32) (main_arg9 : FVec F S256x128 .f32) (main_arg10 : FVec F S256x128 .f32) (main_arg11 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_v13 main_v16
-- ==== Kernel.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x256 : Shape := ⟨2, ![800000, 256]⟩
abbrev S1x256 : Shape := ⟨2, ![1, 256]⟩
abbrev S2000x256 : Shape := ⟨2, ![2000, 256]⟩
abbrev S1x128 : Shape := ⟨2, ![1, 128]⟩
abbrev S50000x128 : Shape := ⟨2, ![50000, 128]⟩
abbrev S2000x128 : Shape := ⟨2, ![2000, 128]⟩

abbrev nBuf : Space → Nat
  | .hbm => 76
  | .vmem => 27
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S256x256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256x256, .f32⟩
  | .hbm, ⟨8, _⟩ => ⟨S256, .f32⟩
  | .hbm, ⟨9, _⟩ => ⟨S256x128, .f32⟩
  | .hbm, ⟨10, _⟩ => ⟨S256x128, .f32⟩
  | .hbm, ⟨11, _⟩ => ⟨S128, .f32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x256, .f32⟩
  | .hbm, ⟨34, _⟩ => ⟨S_, .f32⟩
  | .hbm, ⟨35, _⟩ => ⟨S50000x256, .f32⟩
  | .hbm, ⟨36, _⟩ => ⟨S800000x1, .i32⟩
  | .hbm, ⟨37, _⟩ => ⟨S50000x256, .f32⟩
  | .hbm, ⟨38, _⟩ => ⟨S50000x256, .f32⟩
  | .hbm, ⟨39, _⟩ => ⟨S50000x256, .f32⟩
  | .hbm, ⟨40, _⟩ => ⟨S1x256, .f32⟩
  | .hbm, ⟨41, _⟩ => ⟨S50000x256, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x256, .f32⟩
  | .hbm, ⟨51, _⟩ => ⟨S_, .f32⟩
  | .hbm, ⟨52, _⟩ => ⟨S50000x256, .f32⟩
  | .hbm, ⟨53, _⟩ => ⟨S800000x1, .i32⟩
  | .hbm, ⟨54, _⟩ => ⟨S50000x256, .f32⟩
  | .hbm, ⟨55, _⟩ => ⟨S50000x256, .f32⟩
  | .hbm, ⟨56, _⟩ => ⟨S50000x256, .f32⟩
  | .hbm, ⟨57, _⟩ => ⟨S1x256, .f32⟩
  | .hbm, ⟨58, _⟩ => ⟨S50000x256, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x256, .f32⟩
  | .hbm, ⟨68, _⟩ => ⟨S_, .f32⟩
  | .hbm, ⟨69, _⟩ => ⟨S50000x256, .f32⟩
  | .hbm, ⟨70, _⟩ => ⟨S800000x1, .i32⟩
  | .hbm, ⟨71, _⟩ => ⟨S50000x256, .f32⟩
  | .hbm, ⟨72, _⟩ => ⟨S50000x256, .f32⟩
  | .hbm, ⟨73, _⟩ => ⟨S50000x256, .f32⟩
  | .hbm, ⟨74, _⟩ => ⟨S1x128, .f32⟩
  | .hbm, ⟨75, _⟩ => ⟨S50000x128, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x256, .f32⟩
  | .local _ .vmem, ⟨5, _⟩ => ⟨S256x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x256, .f32⟩
  | .local _ .vmem, ⟨14, _⟩ => ⟨S256x256, .f32⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x128, .f32⟩
  | .local _ .vmem, ⟨23, _⟩ => ⟨S256x128, .f32⟩
  | .local _ .vmem, ⟨24, _⟩ => ⟨S1x128, .f32⟩
  | .local _ .vmem, ⟨25, _⟩ => ⟨S2000x128, .f32⟩
  | .local _ .vmem, ⟨26, _⟩ => ⟨S2000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_c_9 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_10 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  shapeCasts_S128_S1x128 : S128.ShapeCasts S1x128
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  scatter_S50000_S800000x1_S800000_n_0_0_1_wf : ScatterDims.WF S50000 S800000x1 S800000 [] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S256x128.size a
  hwx2_2 : ∀ i : grid2.Coords, EltTy.bits .f32 = 32 ∨ (Rect.block (s := S256x128) S256x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .f32 = 32 ∨ (Rect.block (s := S256x128) S256x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v36) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S256x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v50) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x256 : Shape := ⟨2, ![800000, 256]⟩
abbrev S1x256 : Shape := ⟨2, ![1, 256]⟩
abbrev S50000x128 : Shape := ⟨2, ![50000, 128]⟩
abbrev S1x128 : Shape := ⟨2, ![1, 128]⟩

abbrev nBuf : Space → Nat
  | .hbm => 94
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S256x256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256x256, .f32⟩
  | .hbm, ⟨8, _⟩ => ⟨S256, .f32⟩
  | .hbm, ⟨9, _⟩ => ⟨S256x128, .f32⟩
  | .hbm, ⟨10, _⟩ => ⟨S256x128, .f32⟩
  | .hbm, ⟨11, _⟩ => ⟨S128, .f32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x256, .f32⟩
  | .hbm, ⟨34, _⟩ => ⟨S_, .f32⟩
  | .hbm, ⟨35, _⟩ => ⟨S50000x256, .f32⟩
  | .hbm, ⟨36, _⟩ => ⟨S800000x1, .i32⟩
  | .hbm, ⟨37, _⟩ => ⟨S50000x256, .f32⟩
  | .hbm, ⟨38, _⟩ => ⟨S50000x256, .f32⟩
  | .hbm, ⟨39, _⟩ => ⟨S50000x256, .f32⟩
  | .hbm, ⟨40, _⟩ => ⟨S50000x256, .f32⟩
  | .hbm, ⟨41, _⟩ => ⟨S50000x256, .f32⟩
  | .hbm, ⟨42, _⟩ => ⟨S50000x256, .f32⟩
  | .hbm, ⟨43, _⟩ => ⟨S1x256, .f32⟩
  | .hbm, ⟨44, _⟩ => ⟨S50000x256, .f32⟩
  | .hbm, ⟨45, _⟩ => ⟨S50000x256, .f32⟩
  | .hbm, ⟨46, _⟩ => ⟨S_, .f32⟩
  | .hbm, ⟨47, _⟩ => ⟨S50000x256, .f32⟩
  | .hbm, ⟨48, _⟩ => ⟨S50000x256, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x256, .f32⟩
  | .hbm, ⟨58, _⟩ => ⟨S_, .f32⟩
  | .hbm, ⟨59, _⟩ => ⟨S50000x256, .f32⟩
  | .hbm, ⟨60, _⟩ => ⟨S800000x1, .i32⟩
  | .hbm, ⟨61, _⟩ => ⟨S50000x256, .f32⟩
  | .hbm, ⟨62, _⟩ => ⟨S50000x256, .f32⟩
  | .hbm, ⟨63, _⟩ => ⟨S50000x256, .f32⟩
  | .hbm, ⟨64, _⟩ => ⟨S50000x256, .f32⟩
  | .hbm, ⟨65, _⟩ => ⟨S50000x256, .f32⟩
  | .hbm, ⟨66, _⟩ => ⟨S50000x256, .f32⟩
  | .hbm, ⟨67, _⟩ => ⟨S1x256, .f32⟩
  | .hbm, ⟨68, _⟩ => ⟨S50000x256, .f32⟩
  | .hbm, ⟨69, _⟩ => ⟨S50000x256, .f32⟩
  | .hbm, ⟨70, _⟩ => ⟨S_, .f32⟩
  | .hbm, ⟨71, _⟩ => ⟨S50000x256, .f32⟩
  | .hbm, ⟨72, _⟩ => ⟨S50000x256, .f32⟩
  | .hbm, ⟨73, _⟩ => ⟨S_, .i32⟩
  | .hbm, ⟨74, _⟩ => ⟨S800000, .i32⟩
  | .hbm, ⟨75, _⟩ => ⟨S800000, .i1⟩
  | .hbm, ⟨76, _⟩ => ⟨S_, .i32⟩
  | .hbm, ⟨77, _⟩ => ⟨S800000, .i32⟩
  | .hbm, ⟨78, _⟩ => ⟨S800000, .i32⟩
  | .hbm, ⟨79, _⟩ => ⟨S800000, .i32⟩
  | .hbm, ⟨80, _⟩ => ⟨S800000x1, .i32⟩
  | .hbm, ⟨81, _⟩ => ⟨S800000x256, .f32⟩
  | .hbm, ⟨82, _⟩ => ⟨S_, .f32⟩
  | .hbm, ⟨83, _⟩ => ⟨S50000x256, .f32⟩
  | .hbm, ⟨84, _⟩ => ⟨S800000x1, .i32⟩
  | .hbm, ⟨85, _⟩ => ⟨S50000x256, .f32⟩
  | .hbm, ⟨86, _⟩ => ⟨S50000x256, .f32⟩
  | .hbm, ⟨87, _⟩ => ⟨S50000x256, .f32⟩
  | .hbm, ⟨88, _⟩ => ⟨S50000x128, .f32⟩
  | .hbm, ⟨89, _⟩ => ⟨S50000x128, .f32⟩
  | .hbm, ⟨90, _⟩ => ⟨S50000x128, .f32⟩
  | .hbm, ⟨91, _⟩ => ⟨S1x128, .f32⟩
  | .hbm, ⟨92, _⟩ => ⟨S50000x128, .f32⟩
  | .hbm, ⟨93, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call0_cst : Ref sig .tc := ⟨.hbm, 46, rfl⟩
abbrev main_call0_v0 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_call1_cst : Ref sig .tc := ⟨.hbm, 70, rfl⟩
abbrev main_call1_v0 : Ref sig .tc := ⟨.hbm, 71, rfl⟩
abbrev main_v46 : Ref sig .tc := ⟨.hbm, 72, rfl⟩
abbrev main_c_8 : Ref sig .tc := ⟨.hbm, 73, rfl⟩
abbrev main_v47 : Ref sig .tc := ⟨.hbm, 74, rfl⟩
abbrev main_v48 : Ref sig .tc := ⟨.hbm, 75, rfl⟩
abbrev main_c_9 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_10 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Spec.lean ====
/-
  The network, written once with the host's own operations (generic in the float family).

  Edges run from `src e` to `dst e`.  A node's in-degree is the number of edges into it; `degInv` is the column of
  `1 / max(deg, 1)`.  The neighbourhood mean of a feature array `h` adds row `src e` of `h` (a negative `src e`
  counted from the end, as jnp indexing does) into row `dst e` of a zero array, for every edge, and scales row `n` by
  `degInv n`.  A layer is `h · Ws + mean · Wn + b`; the two hidden layers clamp it below at zero.
-/
import proofs.«155536_j61967788146768_1_alg».proof.Proof.Gen.ReferenceIdeal

noncomputable section

namespace Cert.Sage

open Cert.ReferenceIdeal Cert.ReferenceIdeal.Gen Idealize.ShloMosaic

variable {F : FTy → Type} [FloatOps F]

/-- The column of reciprocal in-degrees `1 / max(deg, 1)`. -/
def degInv (dst : (⟨S800000, .i32⟩ : BufTy).Contents (Elt F)) : (⟨S50000x1, .f32⟩ : BufTy).Contents (Elt F) :=
  broadcastInDim S50000x1 ![0] bcast_S50000_S50000x1_0 (Host.divf (broadcastInDim S50000 ![] bcast_S_S50000 (constant (F := F) S_ .f32 0x3F800000#32)) (maximumf (Host.scatterAdd scatter_S50000_S800000x1_S800000_n_0_0_1 (broadcastInDim S50000 ![] bcast_S_S50000 (constant (F := F) S_ .f32 0x00000000#32)) (broadcastInDim S800000x1 ![0] bcast_S800000_S800000x1_0 dst) (broadcastInDim S800000 ![] bcast_S_S800000 (constant (F := F) S_ .f32 0x3F800000#32))) (broadcastInDim S50000 ![] bcast_S_S50000 (constant (F := F) S_ .f32 0x3F800000#32))))

/-- The rows of `h` gathered along the edges' sources, added up at their destinations, and scaled row by row by `d`. -/
def meanWith (h : (⟨S50000x256, .f32⟩ : BufTy).Contents (Elt F)) (src dst : (⟨S800000, .i32⟩ : BufTy).Contents (Elt F))
    (d : (⟨S50000x1, .f32⟩ : BufTy).Contents (Elt F)) : (⟨S50000x256, .f32⟩ : BufTy).Contents (Elt F) :=
  mulf (Host.scatterAdd scatter_S50000x256_S800000x1_S800000x256_1_0_0_1 (broadcastInDim S50000x256 ![] bcast_S_S50000x256 (constant (F := F) S_ .f32 0x00000000#32)) (broadcastInDim S800000x1 ![0] bcast_S800000_S800000x1_0 dst) (Host.gather gather_S50000x256_S800000x1_S800000x256_1_0_n_n_0_1_1256 h (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)))) (broadcastInDim S50000x256 ![0, 1] bcast_S50000x1_S50000x256_0_1 d)

/-- The neighbourhood mean. -/
def meanOf (h : (⟨S50000x256, .f32⟩ : BufTy).Contents (Elt F)) (src dst : (⟨S800000, .i32⟩ : BufTy).Contents (Elt F)) :
    (⟨S50000x256, .f32⟩ : BufTy).Contents (Elt F) :=
  meanWith h src dst (degInv dst)

/-- A hidden layer as the host computes it. -/
def hidden (h a : (⟨S50000x256, .f32⟩ : BufTy).Contents (Elt F)) (Ws Wn : (⟨S256x256, .f32⟩ : BufTy).Contents (Elt F))
    (b : (⟨S256, .f32⟩ : BufTy).Contents (Elt F)) : (⟨S50000x256, .f32⟩ : BufTy).Contents (Elt F) :=
  maximumf (addf (addf (Host.dotGeneral dot_S50000x256_S256x256_S50000x256_1_0_0_1_n_n none h Ws) (Host.dotGeneral dot_S50000x256_S256x256_S50000x256_1_0_0_1_n_n none a Wn)) (broadcastInDim S50000x256 ![0, 1] bcast_S1x256_S50000x256_0_1 (broadcastInDim S1x256 ![1] bcast_S256_S1x256_1 b))) (broadcastInDim S50000x256 ![] bcast_S_S50000x256 (constant (F := F) S_ .f32 0x00000000#32))

/-- The output layer as the host computes it. -/
def output (h a : (⟨S50000x256, .f32⟩ : BufTy).Contents (Elt F)) (Ws Wn : (⟨S256x128, .f32⟩ : BufTy).Contents (Elt F))
    (b : (⟨S128, .f32⟩ : BufTy).Contents (Elt F)) : (⟨S50000x128, .f32⟩ : BufTy).Contents (Elt F) :=
  addf (addf (Host.dotGeneral dot_S50000x256_S256x128_S50000x128_1_0_0_1_n_n none h Ws) (Host.dotGeneral dot_S50000x256_S256x128_S50000x128_1_0_0_1_n_n none a Wn)) (broadcastInDim S50000x128 ![0, 1] bcast_S1x128_S50000x128_0_1 (broadcastInDim S1x128 ![1] bcast_S128_S1x128_1 b))

/-- The first hidden layer's features. -/
def feat1 (x : (⟨S50000x256, .f32⟩ : BufTy).Contents (Elt F)) (src dst : (⟨S800000, .i32⟩ : BufTy).Contents (Elt F))
    (W1s W1n : (⟨S256x256, .f32⟩ : BufTy).Contents (Elt F)) (b1 : (⟨S256, .f32⟩ : BufTy).Contents (Elt F)) :
    (⟨S50000x256, .f32⟩ : BufTy).Contents (Elt F) :=
  hidden x (meanOf x src dst) W1s W1n b1

/-- The second hidden layer's features. -/
def feat2 (x : (⟨S50000x256, .f32⟩ : BufTy).Contents (Elt F)) (src dst : (⟨S800000, .i32⟩ : BufTy).Contents (Elt F))
    (W1s W1n : (⟨S256x256, .f32⟩ : BufTy).Contents (Elt F)) (b1 : (⟨S256, .f32⟩ : BufTy).Contents (Elt F))
    (W2s W2n : (⟨S256x256, .f32⟩ : BufTy).Contents (Elt F)) (b2 : (⟨S256, .f32⟩ : BufTy).Contents (Elt F)) :
    (⟨S50000x256, .f32⟩ : BufTy).Contents (Elt F) :=
  hidden (feat1 x src dst W1s W1n b1) (meanOf (feat1 x src dst W1s W1n b1) src dst) W2s W2n b2

/-- The whole network. -/
def net (x : (⟨S50000x256, .f32⟩ : BufTy).Contents (Elt F)) (src dst : (⟨S800000, .i32⟩ : BufTy).Contents (Elt F))
    (W1s W1n : (⟨S256x256, .f32⟩ : BufTy).Contents (Elt F)) (b1 : (⟨S256, .f32⟩ : BufTy).Contents (Elt F))
    (W2s W2n : (⟨S256x256, .f32⟩ : BufTy).Contents (Elt F)) (b2 : (⟨S256, .f32⟩ : BufTy).Contents (Elt F))
    (W3s W3n : (⟨S256x128, .f32⟩ : BufTy).Contents (Elt F)) (b3 : (⟨S128, .f32⟩ : BufTy).Contents (Elt F)) :
    (⟨S50000x128, .f32⟩ : BufTy).Contents (Elt F) :=
  output (feat2 x src dst W1s W1n b1 W2s W2n b2) (meanOf (feat2 x src dst W1s W1n b1 W2s W2n b2) src dst) W3s W3n b3

end Cert.Sage

end
-- ==== Proof.Walk.lean ====
/-
  The arrays at each boundary of the kernel program's @main, named.

  @main runs three stretches of host operations, each followed by a pallas_call.  The first stretch computes the
  reciprocal in-degrees and the neighbourhood means of the input features, and lays the first bias out as a row; the
  second and the third compute the means of the features the call before them left, and lay out the next bias.  No
  stretch and no call writes an argument, the reciprocal in-degrees are computed once and read three times, and a call
  writes only its own result: so every array a call finds is, by name, an argument, the call before's result, or the
  network's own expression of those.
-/
import proofs.«155536_j61967788146768_1_alg».proof.Proof.KernelIdealFrame
import proofs.«155536_j61967788146768_1_alg».proof.Proof.Spec
import Idealize.ShloMosaic.Lib.StableHlo.Run
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx Idealize.ShloMosaic.StableHlo

namespace Cert.KernelIdeal.Walk

open Cert.KernelIdeal Cert.KernelIdeal.Gen Cert.KernelIdeal.GenP

variable {F : FTy → Type} [FloatOps F]
variable (m : (ℓ : Loc nD τ sig) → Buf (Elt F) ℓ) (ρ : Dev nD → PrngReg)

/-! ## The kernel program's host operations are the reference's

Both programs were lowered from the same jnp code for the in-degrees and the means, so their printed scatter and gather
records have the same fields, and the kernel program's spelling of the two host chains is the network's. -/

theorem scatter1_eq : scatter_S50000_S800000x1_S800000_n_0_0_1 = Cert.ReferenceIdeal.scatter_S50000_S800000x1_S800000_n_0_0_1 := rfl
theorem scatter2_eq : scatter_S50000x256_S800000x1_S800000x256_1_0_0_1 = Cert.ReferenceIdeal.scatter_S50000x256_S800000x1_S800000x256_1_0_0_1 := rfl
theorem gather_eq : gather_S50000x256_S800000x1_S800000x256_1_0_n_n_0_1_1256 = Cert.ReferenceIdeal.gather_S50000x256_S800000x1_S800000x256_1_0_n_n_0_1_1256 := rfl

/-- The reciprocal in-degrees, as this program spells them. -/
theorem degInv_eq (dst : (⟨S800000, .i32⟩ : BufTy).Contents (Elt F)) :
    broadcastInDim S50000x1 ![0] bcast_S50000_S50000x1_0 (Host.divf (broadcastInDim S50000 ![] bcast_S_S50000 (constant (F := F) S_ .f32 0x3F800000#32)) (maximumf (Host.scatterAdd scatter_S50000_S800000x1_S800000_n_0_0_1 (broadcastInDim S50000 ![] bcast_S_S50000 (constant (F := F) S_ .f32 0x00000000#32)) (broadcastInDim S800000x1 ![0] bcast_S800000_S800000x1_0 dst) (broadcastInDim S800000 ![] bcast_S_S800000 (constant (F := F) S_ .f32 0x3F800000#32))) (broadcastInDim S50000 ![] bcast_S_S50000 (constant (F := F) S_ .f32 0x3F800000#32))))
      = Sage.degInv dst := by
  rw [scatter1_eq]
  rfl

/-- The scaled sums over incoming edges, as this program spells them. -/
theorem meanWith_eq (h : (⟨S50000x256, .f32⟩ : BufTy).Contents (Elt F)) (src dst : (⟨S800000, .i32⟩ : BufTy).Contents (Elt F)) (d : (⟨S50000x1, .f32⟩ : BufTy).Contents (Elt F)) :
    mulf (Host.scatterAdd scatter_S50000x256_S800000x1_S800000x256_1_0_0_1 (broadcastInDim S50000x256 ![] bcast_S_S50000x256 (constant (F := F) S_ .f32 0x00000000#32)) (broadcastInDim S800000x1 ![0] bcast_S800000_S800000x1_0 dst) (Host.gather gather_S50000x256_S800000x1_S800000x256_1_0_n_n_0_1_1256 h (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)))) (broadcastInDim S50000x256 ![0, 1] bcast_S50000x1_S50000x256_0_1 d)
      = Sage.meanWith h src dst d := by
  rw [scatter2_eq, gather_eq]
  rfl

/-! ## The first stretch: from the launch memory to the first call -/

/-- The first stretch writes no argument. -/
theorem s0_arg0 (c : Dev nD) : W1 m ρ c (Proc.devRef .tc main_arg0) = (m ((c : Thread nD τ).loc main_arg0)) := by
  show StableHlo.after hostOps0 (W0 m ρ c) (Proc.devRef .tc main_arg0) = _
  after_results_simp
  try rfl
theorem s0_arg1 (c : Dev nD) : W1 m ρ c (Proc.devRef .tc main_arg1) = (m ((c : Thread nD τ).loc main_arg1)) := by
  show StableHlo.after hostOps0 (W0 m ρ c) (Proc.devRef .tc main_arg1) = _
  after_results_simp
  try rfl
theorem s0_arg2 (c : Dev nD) : W1 m ρ c (Proc.devRef .tc main_arg2) = (m ((c : Thread nD τ).loc main_arg2)) := by
  show StableHlo.after hostOps0 (W0 m ρ c) (Proc.devRef .tc main_arg2) = _
  after_results_simp
  try rfl
theorem s0_arg3 (c : Dev nD) : W1 m ρ c (Proc.devRef .tc main_arg3) = (m ((c : Thread nD τ).loc main_arg3)) := by
  show StableHlo.after hostOps0 (W0 m ρ c) (Proc.devRef .tc main_arg3) = _
  after_results_simp
  try rfl
theorem s0_arg4 (c : Dev nD) : W1 m ρ c (Proc.devRef .tc main_arg4) = (m ((c : Thread nD τ).loc main_arg4)) := by
  show StableHlo.after hostOps0 (W0 m ρ c) (Proc.devRef .tc main_arg4) = _
  after_results_simp
  try rfl
theorem s0_arg6 (c : Dev nD) : W1 m ρ c (Proc.devRef .tc main_arg6) = (m ((c : Thread nD τ).loc main_arg6)) := by
  show StableHlo.after hostOps0 (W0 m ρ c) (Proc.devRef .tc main_arg6) = _
  after_results_simp
  try rfl
theorem s0_arg7 (c : Dev nD) : W1 m ρ c (Proc.devRef .tc main_arg7) = (m ((c : Thread nD τ).loc main_arg7)) := by
  show StableHlo.after hostOps0 (W0 m ρ c) (Proc.devRef .tc main_arg7) = _
  after_results_simp
  try rfl
theorem s0_arg8 (c : Dev nD) : W1 m ρ c (Proc.devRef .tc main_arg8) = (m ((c : Thread nD τ).loc main_arg8)) := by
  show StableHlo.after hostOps0 (W0 m ρ c) (Proc.devRef .tc main_arg8) = _
  after_results_simp
  try rfl
theorem s0_arg9 (c : Dev nD) : W1 m ρ c (Proc.devRef .tc main_arg9) = (m ((c : Thread nD τ).loc main_arg9)) := by
  show StableHlo.after hostOps0 (W0 m ρ c) (Proc.devRef .tc main_arg9) = _
  after_results_simp
  try rfl
theorem s0_arg10 (c : Dev nD) : W1 m ρ c (Proc.devRef .tc main_arg10) = (m ((c : Thread nD τ).loc main_arg10)) := by
  show StableHlo.after hostOps0 (W0 m ρ c) (Proc.devRef .tc main_arg10) = _
  after_results_simp
  try rfl
theorem s0_arg11 (c : Dev nD) : W1 m ρ c (Proc.devRef .tc main_arg11) = (m ((c : Thread nD τ).loc main_arg11)) := by
  show StableHlo.after hostOps0 (W0 m ρ c) (Proc.devRef .tc main_arg11) = _
  after_results_simp
  try rfl
/-- It leaves the reciprocal in-degrees … -/
theorem s0_degInv (c : Dev nD) : W1 m ρ c (Proc.devRef .tc main_v8) = Sage.degInv (m ((c : Thread nD τ).loc main_arg2)) := by
  show StableHlo.after hostOps0 (W0 m ρ c) (Proc.devRef .tc main_v8) = _
  after_results_simp
  exact degInv_eq _

/-- … the means of the input features … -/
theorem s0_mean (c : Dev nD) : W1 m ρ c (Proc.devRef .tc main_v20) = Sage.meanOf (m ((c : Thread nD τ).loc main_arg0)) (m ((c : Thread nD τ).loc main_arg1)) (m ((c : Thread nD τ).loc main_arg2)) := by
  show StableHlo.after hostOps0 (W0 m ρ c) (Proc.devRef .tc main_v20) = _
  after_results_simp
  refine (meanWith_eq _ _ _ _).trans ?_
  rw [degInv_eq]
  rfl

/-- A one-axis array laid out as a single row, read in that row: the array at the column. -/
theorem row_apply {N : ℕ} (v : FVec F ⟨1, ![N]⟩ .f32) (h : (⟨1, ![N]⟩ : Shape).ShapeCasts ⟨2, ![1, N]⟩) (q : Fin N) :
    shapeCast ⟨2, ![1, N]⟩ v h (ix2 0 q) = v (ix1 q) :=
  (shapeCast_addUnit_apply ![N] v h (ix2 0 q)).trans (congrArg v (funext fun a => by match a with | ⟨0, _⟩ => rfl))

/-- … and the first bias laid out as a row. -/
theorem s0_bias (c : Dev nD) (q : Fin 256) :
    (W1 m ρ c (Proc.devRef .tc main_v21) : FVec F S1x256 .f32) (ix2 0 q) = ((m ((c : Thread nD τ).loc main_arg5)) : FVec F S256 .f32) (ix1 q) := by
  have e : W1 m ρ c (Proc.devRef .tc main_v21) = shapeCast S1x256 ((m ((c : Thread nD τ).loc main_arg5)) : FVec F S256 .f32) shapeCasts_S256_S1x256 := by
    show StableHlo.after hostOps0 (W0 m ρ c) (Proc.devRef .tc main_v21) = _
    after_results_simp
    try rfl
  rw [e]
  exact row_apply _ _ q

/-! ## The first call writes its result only -/

theorem r0_arg1 (c : Dev nD) : W2 m ρ c (Proc.devRef .tc main_arg1) = W1 m ρ c (Proc.devRef .tc main_arg1) := W2_of_ne m ρ c main_arg1 (by decide)
theorem r0_arg2 (c : Dev nD) : W2 m ρ c (Proc.devRef .tc main_arg2) = W1 m ρ c (Proc.devRef .tc main_arg2) := W2_of_ne m ρ c main_arg2 (by decide)
theorem r0_arg6 (c : Dev nD) : W2 m ρ c (Proc.devRef .tc main_arg6) = W1 m ρ c (Proc.devRef .tc main_arg6) := W2_of_ne m ρ c main_arg6 (by decide)
theorem r0_arg7 (c : Dev nD) : W2 m ρ c (Proc.devRef .tc main_arg7) = W1 m ρ c (Proc.devRef .tc main_arg7) := W2_of_ne m ρ c main_arg7 (by decide)
theorem r0_arg8 (c : Dev nD) : W2 m ρ c (Proc.devRef .tc main_arg8) = W1 m ρ c (Proc.devRef .tc main_arg8) := W2_of_ne m ρ c main_arg8 (by decide)
theorem r0_arg9 (c : Dev nD) : W2 m ρ c (Proc.devRef .tc main_arg9) = W1 m ρ c (Proc.devRef .tc main_arg9) := W2_of_ne m ρ c main_arg9 (by decide)
theorem r0_arg10 (c : Dev nD) : W2 m ρ c (Proc.devRef .tc main_arg10) = W1 m ρ c (Proc.devRef .tc main_arg10) := W2_of_ne m ρ c main_arg10 (by decide)
theorem r0_arg11 (c : Dev nD) : W2 m ρ c (Proc.devRef .tc main_arg11) = W1 m ρ c (Proc.devRef .tc main_arg11) := W2_of_ne m ρ c main_arg11 (by decide)
theorem r0_v8 (c : Dev nD) : W2 m ρ c (Proc.devRef .tc main_v8) = W1 m ρ c (Proc.devRef .tc main_v8) := W2_of_ne m ρ c main_v8 (by decide)
/-- Its result array is what its 25 write-backs leave. -/
theorem r0_out (c : Dev nD) : W2 m ρ c (Proc.devRef .tc main_v22) = (dat0 (V1 m ρ) c).arrAt 5 cfg0.N := W2_arr m ρ c 5

/-! ## The second stretch -/

theorem s1_v22 (c : Dev nD) : W3 m ρ c (Proc.devRef .tc main_v22) = W2 m ρ c (Proc.devRef .tc main_v22) := by
  show StableHlo.after hostOps1 (W2 m ρ c) (Proc.devRef .tc main_v22) = _
  after_results_simp
  try rfl
theorem s1_arg6 (c : Dev nD) : W3 m ρ c (Proc.devRef .tc main_arg6) = W2 m ρ c (Proc.devRef .tc main_arg6) := by
  show StableHlo.after hostOps1 (W2 m ρ c) (Proc.devRef .tc main_arg6) = _
  after_results_simp
  try rfl
theorem s1_arg7 (c : Dev nD) : W3 m ρ c (Proc.devRef .tc main_arg7) = W2 m ρ c (Proc.devRef .tc main_arg7) := by
  show StableHlo.after hostOps1 (W2 m ρ c) (Proc.devRef .tc main_arg7) = _
  after_results_simp
  try rfl
theorem s1_arg1 (c : Dev nD) : W3 m ρ c (Proc.devRef .tc main_arg1) = W2 m ρ c (Proc.devRef .tc main_arg1) := by
  show StableHlo.after hostOps1 (W2 m ρ c) (Proc.devRef .tc main_arg1) = _
  after_results_simp
  try rfl
theorem s1_arg2 (c : Dev nD) : W3 m ρ c (Proc.devRef .tc main_arg2) = W2 m ρ c (Proc.devRef .tc main_arg2) := by
  show StableHlo.after hostOps1 (W2 m ρ c) (Proc.devRef .tc main_arg2) = _
  after_results_simp
  try rfl
theorem s1_v8 (c : Dev nD) : W3 m ρ c (Proc.devRef .tc main_v8) = W2 m ρ c (Proc.devRef .tc main_v8) := by
  show StableHlo.after hostOps1 (W2 m ρ c) (Proc.devRef .tc main_v8) = _
  after_results_simp
  try rfl
theorem s1_arg9 (c : Dev nD) : W3 m ρ c (Proc.devRef .tc main_arg9) = W2 m ρ c (Proc.devRef .tc main_arg9) := by
  show StableHlo.after hostOps1 (W2 m ρ c) (Proc.devRef .tc main_arg9) = _
  after_results_simp
  try rfl
theorem s1_arg10 (c : Dev nD) : W3 m ρ c (Proc.devRef .tc main_arg10) = W2 m ρ c (Proc.devRef .tc main_arg10) := by
  show StableHlo.after hostOps1 (W2 m ρ c) (Proc.devRef .tc main_arg10) = _
  after_results_simp
  try rfl
theorem s1_arg11 (c : Dev nD) : W3 m ρ c (Proc.devRef .tc main_arg11) = W2 m ρ c (Proc.devRef .tc main_arg11) := by
  show StableHlo.after hostOps1 (W2 m ρ c) (Proc.devRef .tc main_arg11) = _
  after_results_simp
  try rfl
/-- The second stretch leaves the sums of the first call's result over incoming edges, scaled by the reciprocal
    in-degrees the first stretch computed … -/
theorem s1_mean (c : Dev nD) : W3 m ρ c (Proc.devRef .tc main_v34)
    = Sage.meanWith (W2 m ρ c (Proc.devRef .tc main_v22)) (W2 m ρ c (Proc.devRef .tc main_arg1)) (W2 m ρ c (Proc.devRef .tc main_arg2)) (W2 m ρ c (Proc.devRef .tc main_v8)) := by
  show StableHlo.after hostOps1 (W2 m ρ c) (Proc.devRef .tc main_v34) = _
  after_results_simp
  exact meanWith_eq _ _ _ _

/-- … and the second bias laid out as a row. -/
theorem s1_bias (c : Dev nD) (q : Fin 256) :
    (W3 m ρ c (Proc.devRef .tc main_v35) : FVec F S1x256 .f32) (ix2 0 q) = (W2 m ρ c (Proc.devRef .tc main_arg8) : FVec F S256 .f32) (ix1 q) := by
  have e : W3 m ρ c (Proc.devRef .tc main_v35) = shapeCast S1x256 (W2 m ρ c (Proc.devRef .tc main_arg8) : FVec F S256 .f32) shapeCasts_S256_S1x256 := by
    show StableHlo.after hostOps1 (W2 m ρ c) (Proc.devRef .tc main_v35) = _
    after_results_simp
    try rfl
  rw [e]
  exact row_apply _ _ q

/-! ## The second call writes its result only -/

theorem r1_arg1 (c : Dev nD) : W4 m ρ c (Proc.devRef .tc main_arg1) = W3 m ρ c (Proc.devRef .tc main_arg1) := W4_of_ne m ρ c main_arg1 (by decide)
theorem r1_arg2 (c : Dev nD) : W4 m ρ c (Proc.devRef .tc main_arg2) = W3 m ρ c (Proc.devRef .tc main_arg2) := W4_of_ne m ρ c main_arg2 (by decide)
theorem r1_v8 (c : Dev nD) : W4 m ρ c (Proc.devRef .tc main_v8) = W3 m ρ c (Proc.devRef .tc main_v8) := W4_of_ne m ρ c main_v8 (by decide)
theorem r1_arg9 (c : Dev nD) : W4 m ρ c (Proc.devRef .tc main_arg9) = W3 m ρ c (Proc.devRef .tc main_arg9) := W4_of_ne m ρ c main_arg9 (by decide)
theorem r1_arg10 (c : Dev nD) : W4 m ρ c (Proc.devRef .tc main_arg10) = W3 m ρ c (Proc.devRef .tc main_arg10) := W4_of_ne m ρ c main_arg10 (by decide)
theorem r1_arg11 (c : Dev nD) : W4 m ρ c (Proc.devRef .tc main_arg11) = W3 m ρ c (Proc.devRef .tc main_arg11) := W4_of_ne m ρ c main_arg11 (by decide)
theorem r1_out (c : Dev nD) : W4 m ρ c (Proc.devRef .tc main_v36) = (dat1 (V3 m ρ) c).arrAt 5 cfg1.N := W4_arr m ρ c 5

/-! ## The third stretch -/

theorem s2_v36 (c : Dev nD) : W5 m ρ c (Proc.devRef .tc main_v36) = W4 m ρ c (Proc.devRef .tc main_v36) := by
  show StableHlo.after hostOps2 (W4 m ρ c) (Proc.devRef .tc main_v36) = _
  after_results_simp
  try rfl
theorem s2_arg9 (c : Dev nD) : W5 m ρ c (Proc.devRef .tc main_arg9) = W4 m ρ c (Proc.devRef .tc main_arg9) := by
  show StableHlo.after hostOps2 (W4 m ρ c) (Proc.devRef .tc main_arg9) = _
  after_results_simp
  try rfl
theorem s2_arg10 (c : Dev nD) : W5 m ρ c (Proc.devRef .tc main_arg10) = W4 m ρ c (Proc.devRef .tc main_arg10) := by
  show StableHlo.after hostOps2 (W4 m ρ c) (Proc.devRef .tc main_arg10) = _
  after_results_simp
  try rfl
/-- The third stretch leaves the scaled sums of the second call's result … -/
theorem s2_mean (c : Dev nD) : W5 m ρ c (Proc.devRef .tc main_v48)
    = Sage.meanWith (W4 m ρ c (Proc.devRef .tc main_v36)) (W4 m ρ c (Proc.devRef .tc main_arg1)) (W4 m ρ c (Proc.devRef .tc main_arg2)) (W4 m ρ c (Proc.devRef .tc main_v8)) := by
  show StableHlo.after hostOps2 (W4 m ρ c) (Proc.devRef .tc main_v48) = _
  after_results_simp
  exact meanWith_eq _ _ _ _

/-- … and the third bias laid out as a row. -/
theorem s2_bias (c : Dev nD) (q : Fin 128) :
    (W5 m ρ c (Proc.devRef .tc main_v49) : FVec F S1x128 .f32) (ix2 0 q) = (W4 m ρ c (Proc.devRef .tc main_arg11) : FVec F S128 .f32) (ix1 q) := by
  have e : W5 m ρ c (Proc.devRef .tc main_v49) = shapeCast S1x128 (W4 m ρ c (Proc.devRef .tc main_arg11) : FVec F S128 .f32) shapeCasts_S128_S1x128 := by
    show StableHlo.after hostOps2 (W4 m ρ c) (Proc.devRef .tc main_v49) = _
    after_results_simp
    try rfl
  rw [e]
  exact row_apply _ _ q

/-- The last call's result array is what its 25 write-backs leave. -/
theorem r2_out (c : Dev nD) : W6 m ρ c (Proc.devRef .tc main_v50) = (dat2 (V5 m ρ) c).arrAt 5 cfg2.N := W6_arr m ρ c 5

/-! ## The arguments and the reciprocal in-degrees, wherever they are read -/

theorem at2_arg1 (c : Dev nD) : W2 m ρ c (Proc.devRef .tc main_arg1) = (m ((c : Thread nD τ).loc main_arg1)) := (r0_arg1 m ρ c).trans (s0_arg1 m ρ c)
theorem at2_arg2 (c : Dev nD) : W2 m ρ c (Proc.devRef .tc main_arg2) = (m ((c : Thread nD τ).loc main_arg2)) := (r0_arg2 m ρ c).trans (s0_arg2 m ρ c)
theorem at2_arg6 (c : Dev nD) : W2 m ρ c (Proc.devRef .tc main_arg6) = (m ((c : Thread nD τ).loc main_arg6)) := (r0_arg6 m ρ c).trans (s0_arg6 m ρ c)
theorem at2_arg7 (c : Dev nD) : W2 m ρ c (Proc.devRef .tc main_arg7) = (m ((c : Thread nD τ).loc main_arg7)) := (r0_arg7 m ρ c).trans (s0_arg7 m ρ c)
theorem at2_arg8 (c : Dev nD) : W2 m ρ c (Proc.devRef .tc main_arg8) = (m ((c : Thread nD τ).loc main_arg8)) := (r0_arg8 m ρ c).trans (s0_arg8 m ρ c)
theorem at2_degInv (c : Dev nD) : W2 m ρ c (Proc.devRef .tc main_v8) = Sage.degInv (m ((c : Thread nD τ).loc main_arg2)) := (r0_v8 m ρ c).trans (s0_degInv m ρ c)
theorem at3_arg6 (c : Dev nD) : W3 m ρ c (Proc.devRef .tc main_arg6) = (m ((c : Thread nD τ).loc main_arg6)) := (s1_arg6 m ρ c).trans (at2_arg6 m ρ c)
theorem at3_arg7 (c : Dev nD) : W3 m ρ c (Proc.devRef .tc main_arg7) = (m ((c : Thread nD τ).loc main_arg7)) := (s1_arg7 m ρ c).trans (at2_arg7 m ρ c)
theorem at4_arg1 (c : Dev nD) : W4 m ρ c (Proc.devRef .tc main_arg1) = (m ((c : Thread nD τ).loc main_arg1)) := (r1_arg1 m ρ c).trans ((s1_arg1 m ρ c).trans (at2_arg1 m ρ c))
theorem at4_arg2 (c : Dev nD) : W4 m ρ c (Proc.devRef .tc main_arg2) = (m ((c : Thread nD τ).loc main_arg2)) := (r1_arg2 m ρ c).trans ((s1_arg2 m ρ c).trans (at2_arg2 m ρ c))
theorem at4_arg9 (c : Dev nD) : W4 m ρ c (Proc.devRef .tc main_arg9) = (m ((c : Thread nD τ).loc main_arg9)) := (r1_arg9 m ρ c).trans ((s1_arg9 m ρ c).trans ((r0_arg9 m ρ c).trans (s0_arg9 m ρ c)))
theorem at4_arg10 (c : Dev nD) : W4 m ρ c (Proc.devRef .tc main_arg10) = (m ((c : Thread nD τ).loc main_arg10)) := (r1_arg10 m ρ c).trans ((s1_arg10 m ρ c).trans ((r0_arg10 m ρ c).trans (s0_arg10 m ρ c)))
theorem at4_arg11 (c : Dev nD) : W4 m ρ c (Proc.devRef .tc main_arg11) = (m ((c : Thread nD τ).loc main_arg11)) := (r1_arg11 m ρ c).trans ((s1_arg11 m ρ c).trans ((r0_arg11 m ρ c).trans (s0_arg11 m ρ c)))
theorem at4_degInv (c : Dev nD) : W4 m ρ c (Proc.devRef .tc main_v8) = Sage.degInv (m ((c : Thread nD τ).loc main_arg2)) := (r1_v8 m ρ c).trans ((s1_v8 m ρ c).trans (at2_degInv m ρ c))
theorem at5_arg9 (c : Dev nD) : W5 m ρ c (Proc.devRef .tc main_arg9) = (m ((c : Thread nD τ).loc main_arg9)) := (s2_arg9 m ρ c).trans (at4_arg9 m ρ c)
theorem at5_arg10 (c : Dev nD) : W5 m ρ c (Proc.devRef .tc main_arg10) = (m ((c : Thread nD τ).loc main_arg10)) := (s2_arg10 m ρ c).trans (at4_arg10 m ρ c)

end Cert.KernelIdeal.Walk

end
-- ==== Proof.LibPlainMatmul.lean ====
/-
  A plain matrix product read at an entry.  For the dimension numbers of an `M × K` by `K × N` product
  (`DotDims.plain`: the left operand contracted on its columns, the right on its rows, no batch axis), a
  `tpu.matmul` into the zero splat is, at the extended reals and at row `r`, column `c`, the sum over
  `k : Fin K` of the left operand at `(r, k)` times the right at `(k, c)`.  Nothing here names a program.
-/
import Idealize.ShloMosaic.PureOps.Ideal.Laws
import Idealize.ShloMosaic.Lib.ValueIdx

namespace Cert.PlainMatmul

open Idealize.ShloMosaic Idealize.ShloMosaic.ValueIdx

/-- The left operand's index of a plain product at output `(r, c)` and contraction coordinate `k` is `(r, k)`. -/
theorem lhsIdx_plain {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 r c) _).trans hk

/-- The right operand's index there is `(k, c)`. -/
theorem rhsIdx_plain {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 r c) _).trans hk
  | ⟨1, _⟩ => rfl

/-- A plain `tpu.matmul` into zeros, at entry `(r, c)`, is `∑ k, a (r, k) * b (k, c)` on the extended reals. -/
theorem matmul_plain_zero_apply {M K N : ℕ} {φ₁ φ₂ : FTy}
    (a : FVec Ideal ⟨2, ![M, K]⟩ φ₁) (b : FVec Ideal ⟨2, ![K, N]⟩ φ₂) (prec : Option ContractPrecision) (r : Fin M) (c : Fin N) :
    matmul (DotDims.plain M K N) prec a b (constant ⟨2, ![M, N]⟩ .f32 0x00000000#32) (ix2 r c)
      = ∑ k : Fin K, a (ix2 r k) * b (ix2 k c) := by
  show FloatOps.matmul (DotDims.plain M K N) prec a b (constant ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.PlainMatmul
-- ==== Proof.Payload.lean ====
/-
  What each of the three kernel bodies stores, read at an entry of the block.

  A body loads a block of 2000 feature rows `x0`, the matching block of neighbourhood means `x1`, the two weight
  matrices `x2`, `x3` and the bias row `x4` (as a 1 × N array), rounds the four matrix operands to bf16 (the identity
  on the extended reals), multiplies into zero accumulators, adds the two products and the bias row, and — in the two
  hidden layers — clamps below at zero.  At row `p`, column `q` of the block that is

      (∑ k, x0 (p, k) · x2 (k, q)  +  ∑ k, x1 (p, k) · x3 (k, q))  +  x4 (0, q) .
-/
import proofs.«155536_j61967788146768_1_alg».proof.Proof.Gen.KernelIdeal.Skeleton
import proofs.«155536_j61967788146768_1_alg».proof.Proof.LibPlainMatmul
import Idealize.ShloMosaic.Lib.Pipeline.Value

noncomputable section

namespace Cert.KernelIdeal.Body

open Cert.KernelIdeal Cert.KernelIdeal.Gen Idealize.ShloMosaic Idealize.ShloMosaic.ValueIdx Cert.PlainMatmul

/-- The kernels' products are plain ones: 2000 × 256 by 256 × 256 … -/
theorem dot256 : dot_S2000x256_S256x256_S2000x256_1_0_0_1_n_n = DotDims.plain 2000 256 256 := rfl
/-- … and 2000 × 256 by 256 × 128. -/
theorem dot128 : dot_S2000x256_S256x128_S2000x128_1_0_0_1_n_n = DotDims.plain 2000 256 128 := rfl

/-- The bias row broadcast over the block's rows, at an entry: the row's entry in that column. -/
theorem bias256 (x4 : Vec Ideal S1x256 .f32) (p : Fin 2000) (q : Fin 256) :
    broadcastTo S2000x256 (shapeCast S1x256 x4 shapeCasts_S1x256_S1x256) broadcasts_S1x256_S2000x256 (ix2 p q) = x4 (ix2 0 q) := by
  rw [shapeCast_self]
  exact broadcastTo_apply x4 broadcasts_S1x256_S2000x256 (ix2 p q) (ix2 0 q) (fun a => match a with
    | ⟨0, _⟩ => by show (0 : ℕ) = if (1 : ℕ) = 1 then 0 else _; rw [if_pos rfl]
    | ⟨1, _⟩ => by show q.val = if (256 : ℕ) = 1 then 0 else q.val; rw [if_neg (by decide)])

theorem bias128 (x4 : Vec Ideal S1x128 .f32) (p : Fin 2000) (q : Fin 128) :
    broadcastTo S2000x128 (shapeCast S1x128 x4 shapeCasts_S1x128_S1x128) broadcasts_S1x128_S2000x128 (ix2 p q) = x4 (ix2 0 q) := by
  rw [shapeCast_self]
  exact broadcastTo_apply x4 broadcasts_S1x128_S2000x128 (ix2 p q) (ix2 0 q) (fun a => match a with
    | ⟨0, _⟩ => by show (0 : ℕ) = if (1 : ℕ) = 1 then 0 else _; rw [if_pos rfl]
    | ⟨1, _⟩ => by show q.val = if (128 : ℕ) = 1 then 0 else q.val; rw [if_neg (by decide)])

/-- The first layer's body at an entry. -/
theorem pay0_apply (x0 x1 : Vec Ideal S2000x256 .f32) (x2 x3 : Vec Ideal S256x256 .f32) (x4 : Vec Ideal S1x256 .f32)
    (p : Fin 2000) (q : Fin 256) :
    k0_pay1 x0 x1 x2 x3 x4 (ix2 p q)
      = max (((∑ k : Fin 256, x0 (ix2 p k) * x2 (ix2 k q)) + ∑ k : Fin 256, x1 (ix2 p k) * x3 (ix2 k q)) + x4 (ix2 0 q))
          (Ideal.ofBits .f32 0x00000000#32) := by
  unfold k0_pay1
  rw [maximumf_apply, addf_apply, addf_apply, dot256, matmul_plain_zero_apply, matmul_plain_zero_apply, bias256, shapeCast_self]
  rfl

/-- The second layer's body at an entry: the same expression. -/
theorem pay1_apply (x0 x1 : Vec Ideal S2000x256 .f32) (x2 x3 : Vec Ideal S256x256 .f32) (x4 : Vec Ideal S1x256 .f32)
    (p : Fin 2000) (q : Fin 256) :
    k1_pay1 x0 x1 x2 x3 x4 (ix2 p q)
      = max (((∑ k : Fin 256, x0 (ix2 p k) * x2 (ix2 k q)) + ∑ k : Fin 256, x1 (ix2 p k) * x3 (ix2 k q)) + x4 (ix2 0 q))
          (Ideal.ofBits .f32 0x00000000#32) := by
  unfold k1_pay1
  rw [maximumf_apply, addf_apply, addf_apply, dot256, matmul_plain_zero_apply, matmul_plain_zero_apply, bias256, shapeCast_self, shapeCast_self]
  rfl

/-- The last layer's body at an entry: the affine part alone, 128 columns wide. -/
theorem pay2_apply (x0 x1 : Vec Ideal S2000x256 .f32) (x2 x3 : Vec Ideal S256x128 .f32) (x4 : Vec Ideal S1x128 .f32)
    (p : Fin 2000) (q : Fin 128) :
    k2_pay1 x0 x1 x2 x3 x4 (ix2 p q)
      = ((∑ k : Fin 256, x0 (ix2 p k) * x2 (ix2 k q)) + ∑ k : Fin 256, x1 (ix2 p k) * x3 (ix2 k q)) + x4 (ix2 0 q) := by
  unfold k2_pay1
  rw [addf_apply, addf_apply, dot128, matmul_plain_zero_apply, matmul_plain_zero_apply, bias128, shapeCast_self, shapeCast_self]
  rfl

end Cert.KernelIdeal.Body

end
-- ==== Proof.Layer.lean ====
/-
  One layer of the network as a function of its operands, entry by entry, on the extended reals.

  A layer takes the node features `h` (one row per node), the neighbourhood means `a` (same shape), two weight
  matrices and a bias row, and returns `h · Ws + a · Wn + b`, the bias added to every row: at row `r`, column `c`

      (∑ k, h (r, k) · Ws (k, c)  +  ∑ k, a (r, k) · Wn (k, c))  +  b c .

  The two hidden layers then clamp below at zero.  Both programs compute exactly this expression, the kernel one
  block of 2000 rows at a time, so no law of arithmetic beyond reading each operation at an entry is needed.
-/
import Idealize.ShloMosaic.PureOps.Ideal.Laws
import Idealize.ShloMosaic.Lib.ValueIdx

namespace Cert.Sage

open Idealize.ShloMosaic Idealize.ShloMosaic.ValueIdx

/-- The affine part of a layer at an entry. -/
noncomputable def conv {R K N : ℕ} (h a : FVec Ideal ⟨2, ![R, K]⟩ .f32) (Ws Wn : FVec Ideal ⟨2, ![K, N]⟩ .f32)
    (b : FVec Ideal ⟨1, ![N]⟩ .f32) : FVec Ideal ⟨2, ![R, N]⟩ .f32 :=
  fun i => ((∑ k : Fin K, h (ix2 (i 0) k) * Ws (ix2 k (i 1))) + ∑ k : Fin K, a (ix2 (i 0) k) * Wn (ix2 k (i 1))) + b (ix1 (i 1))

/-- A hidden layer: the affine part clamped below at the value of the zero word. -/
noncomputable def convRelu {R K N : ℕ} (h a : FVec Ideal ⟨2, ![R, K]⟩ .f32) (Ws Wn : FVec Ideal ⟨2, ![K, N]⟩ .f32)
    (b : FVec Ideal ⟨1, ![N]⟩ .f32) : FVec Ideal ⟨2, ![R, N]⟩ .f32 :=
  fun i => max (conv h a Ws Wn b i) (Ideal.ofBits .f32 0x00000000#32)

theorem conv_apply {R K N : ℕ} (h a : FVec Ideal ⟨2, ![R, K]⟩ .f32) (Ws Wn : FVec Ideal ⟨2, ![K, N]⟩ .f32)
    (b : FVec Ideal ⟨1, ![N]⟩ .f32) (r : Fin R) (c : Fin N) :
    conv h a Ws Wn b (ix2 r c)
      = ((∑ k : Fin K, h (ix2 r k) * Ws (ix2 k c)) + ∑ k : Fin K, a (ix2 r k) * Wn (ix2 k c)) + b (ix1 c) := rfl

theorem convRelu_apply {R K N : ℕ} (h a : FVec Ideal ⟨2, ![R, K]⟩ .f32) (Ws Wn : FVec Ideal ⟨2, ![K, N]⟩ .f32)
    (b : FVec Ideal ⟨1, ![N]⟩ .f32) (r : Fin R) (c : Fin N) :
    convRelu h a Ws Wn b (ix2 r c)
      = max (((∑ k : Fin K, h (ix2 r k) * Ws (ix2 k c)) + ∑ k : Fin K, a (ix2 r k) * Wn (ix2 k c)) + b (ix1 c))
          (Ideal.ofBits .f32 0x00000000#32) := rfl

end Cert.Sage
-- ==== Proof.Region0.lean ====
/-
  The first layer's pallas_call, read as a value: whatever arrays the region finds, its result array ends holding the
  hidden layer of them.

  The grid has 25 points; point `t` sees rows `2000 t … 2000 t + 1999` of the features and of the neighbourhood
  means, the two weight matrices and the bias row whole, and writes rows `2000 t … 2000 t + 1999` of the result.  What
  it writes at row `p`, column `q` of its block is the layer at row `2000 t + p`, column `q` of the whole arrays
  (the body read at an entry, each block read where it lies in its array), so every point's block is a block of ONE
  function of the arrays, and the 25 blocks cover the result.
-/
import proofs.«155536_j61967788146768_1_alg».proof.Proof.KernelIdealFrame
import proofs.«155536_j61967788146768_1_alg».proof.Proof.Payload
import proofs.«155536_j61967788146768_1_alg».proof.Proof.Layer
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.KernelIdeal.GenP

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows (features, means, result) are at block `t`, the
    weights and the bias at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The feature block at point `t` is rows `2000 t …` of the feature array. -/
theorem blkH_apply (c : Dev nD) (t : Fin cfg0.N) (x : S2000x256.Idx) (k : S50000x256.Idx)
    (hk0 : (k 0).val = 2000 * t.val + (x 0).val) (hk1 : (k 1).val = (x 1).val) :
    (iblk0 V c 0 t : Vec Ideal S2000x256 .f32) x = (V c main_arg0 : FVec Ideal S50000x256 .f32) k := by
  obtain ⟨e0, e1, -⟩ := idx_facts t
  unfold iblk0
  rw [View.read_apply]
  refine congrArg (V c main_arg0 : FVec Ideal S50000x256 .f32) (funext fun a => Fin.ext ?_)
  match a with
  | ⟨0, _⟩ => show win0_0.index t (0 : Fin 2) * 2000 + 1 * (x 0).val = (k 0).val; rw [e0, hk0]; omega
  | ⟨1, _⟩ => show win0_0.index t (1 : Fin 2) * 256 + 1 * (x 1).val = (k 1).val; rw [e1, hk1]; omega

/-- The block of neighbourhood means at point `t` is rows `2000 t …` of their array. -/
theorem blkA_apply (c : Dev nD) (t : Fin cfg0.N) (x : S2000x256.Idx) (k : S50000x256.Idx)
    (hk0 : (k 0).val = 2000 * t.val + (x 0).val) (hk1 : (k 1).val = (x 1).val) :
    (iblk0 V c 1 t : Vec Ideal S2000x256 .f32) x = (V c main_v20 : FVec Ideal S50000x256 .f32) k := by
  obtain ⟨-, -, e0, e1, -⟩ := idx_facts t
  unfold iblk0
  rw [View.read_apply]
  refine congrArg (V c main_v20 : FVec Ideal S50000x256 .f32) (funext fun a => Fin.ext ?_)
  match a with
  | ⟨0, _⟩ => show win0_1.index t (0 : Fin 2) * 2000 + 1 * (x 0).val = (k 0).val; rw [e0, hk0]; omega
  | ⟨1, _⟩ => show win0_1.index t (1 : Fin 2) * 256 + 1 * (x 1).val = (k 1).val; rw [e1, hk1]; omega

/-- Each point sees the first weight matrix whole … -/
theorem blkWs_apply (c : Dev nD) (t : Fin cfg0.N) (x : S256x256.Idx) :
    (iblk0 V c 2 t : Vec Ideal S256x256 .f32) x = (V c main_arg3 : FVec Ideal S256x256 .f32) x := by
  obtain ⟨-, -, -, -, e0, e1, -⟩ := idx_facts t
  unfold iblk0
  rw [View.read_apply]
  refine congrArg (V c main_arg3 : FVec Ideal S256x256 .f32) (funext fun a => Fin.ext ?_)
  match a with
  | ⟨0, _⟩ => show win0_2.index t (0 : Fin 2) * 256 + 1 * (x 0).val = (x 0).val; rw [e0]; omega
  | ⟨1, _⟩ => show win0_2.index t (1 : Fin 2) * 256 + 1 * (x 1).val = (x 1).val; rw [e1]; omega

/-- … the second weight matrix whole … -/
theorem blkWn_apply (c : Dev nD) (t : Fin cfg0.N) (x : S256x256.Idx) :
    (iblk0 V c 3 t : Vec Ideal S256x256 .f32) x = (V c main_arg4 : FVec Ideal S256x256 .f32) x := by
  obtain ⟨-, -, -, -, -, -, e0, e1, -⟩ := idx_facts t
  unfold iblk0
  rw [View.read_apply]
  refine congrArg (V c main_arg4 : FVec Ideal S256x256 .f32) (funext fun a => Fin.ext ?_)
  match a with
  | ⟨0, _⟩ => show win0_3.index t (0 : Fin 2) * 256 + 1 * (x 0).val = (x 0).val; rw [e0]; omega
  | ⟨1, _⟩ => show win0_3.index t (1 : Fin 2) * 256 + 1 * (x 1).val = (x 1).val; rw [e1]; omega

/-- … and the bias row whole. -/
theorem blkB_apply (c : Dev nD) (t : Fin cfg0.N) (x : S1x256.Idx) :
    (iblk0 V c 4 t : Vec Ideal S1x256 .f32) x = (V c main_v21 : FVec Ideal S1x256 .f32) x := by
  obtain ⟨-, -, -, -, -, -, -, -, e0, e1, -⟩ := idx_facts t
  unfold iblk0
  rw [View.read_apply]
  refine congrArg (V c main_v21 : FVec Ideal S1x256 .f32) (funext fun a => Fin.ext ?_)
  match a with
  | ⟨0, _⟩ => show win0_4.index t (0 : Fin 2) * 1 + 1 * (x 0).val = (x 0).val; rw [e0]; omega
  | ⟨1, _⟩ => show win0_4.index t (1 : Fin 2) * 256 + 1 * (x 1).val = (x 1).val; rw [e1]; omega

/-- The result array as ONE function of the arrays the region finds: the hidden layer of the features, the means, the
    two weight matrices and the bias `b` whose row the region finds at its fifth operand. -/
abbrev G (c : Dev nD) (b : FVec Ideal S256 .f32) : Buf (Elt Ideal) ((c : Thread nD τ).loc main_v22) :=
  Sage.convRelu (R := 50000) (K := 256) (N := 256) (V c main_arg0) (V c main_v20) (V c main_arg3) (V c main_arg4) b

/-- WHAT POINT `t` WRITES BACK is block `t` of `G`. -/
theorem flushed_eq (c : Dev nD) (b : FVec Ideal S256 .f32)
    (hb : ∀ q : Fin 256, (V c main_v21 : FVec Ideal S1x256 .f32) (ix2 0 q) = b (ix1 q)) (t : Fin cfg0.N) :
    (dat0 V c).flushed 5 t = ((cfg0.win 5).blk t).view.read (Elt Ideal) (G V c b) := by
  show (cfg0.win 5).cut (grid0.coords t) ((dat0 V c).after 5 t) = _
  rw [after0_5]
  unfold out0_5
  rw [View.canon_unit_zero hz]
  simp only [View.ld_unit_zero (S := S2000x256) hz, View.ld_unit_zero (S := S256x256) hz, View.ld_unit_zero (S := S1x256) hz]
  obtain ⟨-, -, -, -, -, -, -, -, -, -, e0, e1⟩ := idx_facts t
  funext j
  obtain ⟨p, q, rfl⟩ : ∃ (p : Fin 2000) (q : Fin 256), j = ix2 p q := ⟨j 0, j 1, eq_ix2 j⟩
  show k0_pay1 (iblk0 V c 0 t) (iblk0 V c 1 t) (iblk0 V c 2 t) (iblk0 V c 3 t) (iblk0 V c 4 t) (ix2 p q)
      = G V c b (((cfg0.win 5).blk t).view.emb (ix2 p q))
  refine (Body.pay0_apply (iblk0 V c 0 t) (iblk0 V c 1 t) (iblk0 V c 2 t) (iblk0 V c 3 t) (iblk0 V c 4 t) p q).trans ?_
  have hi0 : ((((cfg0.win 5).blk t).view.emb (ix2 p q)) 0).val = 2000 * t.val + p.val := by
    show win0_5.index t (0 : Fin 2) * 2000 + 1 * p.val = _; rw [e0]; omega
  have hi1 : ((((cfg0.win 5).blk t).view.emb (ix2 p q)) 1).val = q.val := by
    show win0_5.index t (1 : Fin 2) * 256 + 1 * q.val = _; rw [e1]; omega
  generalize ((cfg0.win 5).blk t).view.emb (ix2 p q) = i at hi0 hi1 ⊢
  obtain ⟨r, q', rfl⟩ : ∃ (r : Fin 50000) (q' : Fin 256), i = ix2 r q' := ⟨i 0, i 1, eq_ix2 i⟩
  have hr : r.val = 2000 * t.val + p.val := hi0
  obtain rfl : q' = q := Fin.ext hi1
  show _ = Sage.convRelu (R := 50000) (K := 256) (N := 256) (V c main_arg0) (V c main_v20) (V c main_arg3) (V c main_arg4) b (ix2 r q')
  rw [Sage.convRelu_apply]
  refine congrArg₂ max (congrArg₂ (· + ·) (congrArg₂ (· + ·) (Finset.sum_congr rfl fun k _ => ?_) (Finset.sum_congr rfl fun k _ => ?_)) ?_) rfl
  · exact congrArg₂ (· * ·) (blkH_apply V c t (ix2 p k) (ix2 r k) hr rfl) (blkWs_apply V c t (ix2 k q'))
  · exact congrArg₂ (· * ·) (blkA_apply V c t (ix2 p k) (ix2 r k) hr rfl) (blkWn_apply V c t (ix2 k q'))
  · exact (blkB_apply V c t (ix2 0 q')).trans (hb q')

/-- An index of the result array is in point `t`'s block iff each coordinate is in the block's range on its axis. -/
theorem mem_blk (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v22).slice (win0_5.rect t)).set ↔ _
  rw [View.set_slice_whole, Rect.mem_set_unit]
  exact Iff.rfl

/-- Row `r` of the result is written by point `r / 2000`: the 25 blocks cover the array. -/
theorem cover (i : S50000x256.Idx) : ∃ t : Fin cfg0.N, (cfg0.win 5).flush t = true ∧ i ∈ ((cfg0.win 5).blk t).view.set := by
  have hi0 : (i 0).val < 50000 := (i 0).isLt
  have hi1 : (i 1).val < 256 := (i 1).isLt
  have hN : cfg0.N = 25 := N_0
  obtain ⟨t, ht⟩ : ∃ t : Fin cfg0.N, t.val = (i 0).val / 2000 := ⟨⟨(i 0).val / 2000, by rw [hN]; omega⟩, rfl⟩
  refine ⟨t, flush0_5 t, ?_⟩
  rw [mem_blk]
  obtain ⟨-, -, -, -, -, -, -, -, -, -, e0, e1⟩ := idx_facts t
  intro a
  match a with
  | ⟨0, _⟩ => show win0_5.index t (0 : Fin 2) * 2000 ≤ (i 0).val ∧ (i 0).val < win0_5.index t (0 : Fin 2) * 2000 + 2000; rw [e0, ht]; omega
  | ⟨1, _⟩ => show win0_5.index t (1 : Fin 2) * 256 ≤ (i 1).val ∧ (i 1).val < win0_5.index t (1 : Fin 2) * 256 + 256; rw [e1]; omega

/-- THE RESULT ARRAY after the region: the hidden layer of the arrays the region found. -/
theorem final (c : Dev nD) (b : FVec Ideal S256 .f32)
    (hb : ∀ q : Fin 256, (V c main_v21 : FVec Ideal S1x256 .f32) (ix2 0 q) = b (ix1 q)) :
    (dat0 V c).arrAt 5 cfg0.N = G V c b :=
  (dat0 V c).arrAt_eq_of_cover 5 (G V c b) (fun t _ => flushed_eq V c b hb t) cover

end Cert.KernelIdeal.Region0

end
-- ==== Proof.Region1.lean ====
/-
  The second layer's pallas_call, read as a value: whatever arrays the region finds, its result array ends holding the
  hidden layer of them.

  The grid has 25 points; point `t` sees rows `2000 t … 2000 t + 1999` of the features and of the neighbourhood
  means, the two weight matrices and the bias row whole, and writes rows `2000 t … 2000 t + 1999` of the result.  What
  it writes at row `p`, column `q` of its block is the layer at row `2000 t + p`, column `q` of the whole arrays
  (the body read at an entry, each block read where it lies in its array), so every point's block is a block of ONE
  function of the arrays, and the 25 blocks cover the result.
-/
import proofs.«155536_j61967788146768_1_alg».proof.Proof.KernelIdealFrame
import proofs.«155536_j61967788146768_1_alg».proof.Proof.Payload
import proofs.«155536_j61967788146768_1_alg».proof.Proof.Layer
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.KernelIdeal.GenP

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows (features, means, result) are at block `t`, the
    weights and the bias at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The feature block at point `t` is rows `2000 t …` of the feature array. -/
theorem blkH_apply (c : Dev nD) (t : Fin cfg1.N) (x : S2000x256.Idx) (k : S50000x256.Idx)
    (hk0 : (k 0).val = 2000 * t.val + (x 0).val) (hk1 : (k 1).val = (x 1).val) :
    (iblk1 V c 0 t : Vec Ideal S2000x256 .f32) x = (V c main_v22 : FVec Ideal S50000x256 .f32) k := by
  obtain ⟨e0, e1, -⟩ := idx_facts t
  unfold iblk1
  rw [View.read_apply]
  refine congrArg (V c main_v22 : FVec Ideal S50000x256 .f32) (funext fun a => Fin.ext ?_)
  match a with
  | ⟨0, _⟩ => show win1_0.index t (0 : Fin 2) * 2000 + 1 * (x 0).val = (k 0).val; rw [e0, hk0]; omega
  | ⟨1, _⟩ => show win1_0.index t (1 : Fin 2) * 256 + 1 * (x 1).val = (k 1).val; rw [e1, hk1]; omega

/-- The block of neighbourhood means at point `t` is rows `2000 t …` of their array. -/
theorem blkA_apply (c : Dev nD) (t : Fin cfg1.N) (x : S2000x256.Idx) (k : S50000x256.Idx)
    (hk0 : (k 0).val = 2000 * t.val + (x 0).val) (hk1 : (k 1).val = (x 1).val) :
    (iblk1 V c 1 t : Vec Ideal S2000x256 .f32) x = (V c main_v34 : FVec Ideal S50000x256 .f32) k := by
  obtain ⟨-, -, e0, e1, -⟩ := idx_facts t
  unfold iblk1
  rw [View.read_apply]
  refine congrArg (V c main_v34 : FVec Ideal S50000x256 .f32) (funext fun a => Fin.ext ?_)
  match a with
  | ⟨0, _⟩ => show win1_1.index t (0 : Fin 2) * 2000 + 1 * (x 0).val = (k 0).val; rw [e0, hk0]; omega
  | ⟨1, _⟩ => show win1_1.index t (1 : Fin 2) * 256 + 1 * (x 1).val = (k 1).val; rw [e1, hk1]; omega

/-- Each point sees the first weight matrix whole … -/
theorem blkWs_apply (c : Dev nD) (t : Fin cfg1.N) (x : S256x256.Idx) :
    (iblk1 V c 2 t : Vec Ideal S256x256 .f32) x = (V c main_arg6 : FVec Ideal S256x256 .f32) x := by
  obtain ⟨-, -, -, -, e0, e1, -⟩ := idx_facts t
  unfold iblk1
  rw [View.read_apply]
  refine congrArg (V c main_arg6 : FVec Ideal S256x256 .f32) (funext fun a => Fin.ext ?_)
  match a with
  | ⟨0, _⟩ => show win1_2.index t (0 : Fin 2) * 256 + 1 * (x 0).val = (x 0).val; rw [e0]; omega
  | ⟨1, _⟩ => show win1_2.index t (1 : Fin 2) * 256 + 1 * (x 1).val = (x 1).val; rw [e1]; omega

/-- … the second weight matrix whole … -/
theorem blkWn_apply (c : Dev nD) (t : Fin cfg1.N) (x : S256x256.Idx) :
    (iblk1 V c 3 t : Vec Ideal S256x256 .f32) x = (V c main_arg7 : FVec Ideal S256x256 .f32) x := by
  obtain ⟨-, -, -, -, -, -, e0, e1, -⟩ := idx_facts t
  unfold iblk1
  rw [View.read_apply]
  refine congrArg (V c main_arg7 : FVec Ideal S256x256 .f32) (funext fun a => Fin.ext ?_)
  match a with
  | ⟨0, _⟩ => show win1_3.index t (0 : Fin 2) * 256 + 1 * (x 0).val = (x 0).val; rw [e0]; omega
  | ⟨1, _⟩ => show win1_3.index t (1 : Fin 2) * 256 + 1 * (x 1).val = (x 1).val; rw [e1]; omega

/-- … and the bias row whole. -/
theorem blkB_apply (c : Dev nD) (t : Fin cfg1.N) (x : S1x256.Idx) :
    (iblk1 V c 4 t : Vec Ideal S1x256 .f32) x = (V c main_v35 : FVec Ideal S1x256 .f32) x := by
  obtain ⟨-, -, -, -, -, -, -, -, e0, e1, -⟩ := idx_facts t
  unfold iblk1
  rw [View.read_apply]
  refine congrArg (V c main_v35 : FVec Ideal S1x256 .f32) (funext fun a => Fin.ext ?_)
  match a with
  | ⟨0, _⟩ => show win1_4.index t (0 : Fin 2) * 1 + 1 * (x 0).val = (x 0).val; rw [e0]; omega
  | ⟨1, _⟩ => show win1_4.index t (1 : Fin 2) * 256 + 1 * (x 1).val = (x 1).val; rw [e1]; omega

/-- The result array as ONE function of the arrays the region finds: the hidden layer of the features, the means, the
    two weight matrices and the bias `b` whose row the region finds at its fifth operand. -/
abbrev G (c : Dev nD) (b : FVec Ideal S256 .f32) : Buf (Elt Ideal) ((c : Thread nD τ).loc main_v36) :=
  Sage.convRelu (R := 50000) (K := 256) (N := 256) (V c main_v22) (V c main_v34) (V c main_arg6) (V c main_arg7) b

/-- WHAT POINT `t` WRITES BACK is block `t` of `G`. -/
theorem flushed_eq (c : Dev nD) (b : FVec Ideal S256 .f32)
    (hb : ∀ q : Fin 256, (V c main_v35 : FVec Ideal S1x256 .f32) (ix2 0 q) = b (ix1 q)) (t : Fin cfg1.N) :
    (dat1 V c).flushed 5 t = ((cfg1.win 5).blk t).view.read (Elt Ideal) (G V c b) := by
  show (cfg1.win 5).cut (grid1.coords t) ((dat1 V c).after 5 t) = _
  rw [after1_5]
  unfold out1_5
  rw [View.canon_unit_zero hz]
  simp only [View.ld_unit_zero (S := S2000x256) hz, View.ld_unit_zero (S := S256x256) hz, View.ld_unit_zero (S := S1x256) hz]
  obtain ⟨-, -, -, -, -, -, -, -, -, -, e0, e1⟩ := idx_facts t
  funext j
  obtain ⟨p, q, rfl⟩ : ∃ (p : Fin 2000) (q : Fin 256), j = ix2 p q := ⟨j 0, j 1, eq_ix2 j⟩
  show k1_pay1 (iblk1 V c 0 t) (iblk1 V c 1 t) (iblk1 V c 2 t) (iblk1 V c 3 t) (iblk1 V c 4 t) (ix2 p q)
      = G V c b (((cfg1.win 5).blk t).view.emb (ix2 p q))
  refine (Body.pay1_apply (iblk1 V c 0 t) (iblk1 V c 1 t) (iblk1 V c 2 t) (iblk1 V c 3 t) (iblk1 V c 4 t) p q).trans ?_
  have hi0 : ((((cfg1.win 5).blk t).view.emb (ix2 p q)) 0).val = 2000 * t.val + p.val := by
    show win1_5.index t (0 : Fin 2) * 2000 + 1 * p.val = _; rw [e0]; omega
  have hi1 : ((((cfg1.win 5).blk t).view.emb (ix2 p q)) 1).val = q.val := by
    show win1_5.index t (1 : Fin 2) * 256 + 1 * q.val = _; rw [e1]; omega
  generalize ((cfg1.win 5).blk t).view.emb (ix2 p q) = i at hi0 hi1 ⊢
  obtain ⟨r, q', rfl⟩ : ∃ (r : Fin 50000) (q' : Fin 256), i = ix2 r q' := ⟨i 0, i 1, eq_ix2 i⟩
  have hr : r.val = 2000 * t.val + p.val := hi0
  obtain rfl : q' = q := Fin.ext hi1
  show _ = Sage.convRelu (R := 50000) (K := 256) (N := 256) (V c main_v22) (V c main_v34) (V c main_arg6) (V c main_arg7) b (ix2 r q')
  rw [Sage.convRelu_apply]
  refine congrArg₂ max (congrArg₂ (· + ·) (congrArg₂ (· + ·) (Finset.sum_congr rfl fun k _ => ?_) (Finset.sum_congr rfl fun k _ => ?_)) ?_) rfl
  · exact congrArg₂ (· * ·) (blkH_apply V c t (ix2 p k) (ix2 r k) hr rfl) (blkWs_apply V c t (ix2 k q'))
  · exact congrArg₂ (· * ·) (blkA_apply V c t (ix2 p k) (ix2 r k) hr rfl) (blkWn_apply V c t (ix2 k q'))
  · exact (blkB_apply V c t (ix2 0 q')).trans (hb q')

/-- An index of the result array is in point `t`'s block iff each coordinate is in the block's range on its axis. -/
theorem mem_blk (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v36).slice (win1_5.rect t)).set ↔ _
  rw [View.set_slice_whole, Rect.mem_set_unit]
  exact Iff.rfl

/-- Row `r` of the result is written by point `r / 2000`: the 25 blocks cover the array. -/
theorem cover (i : S50000x256.Idx) : ∃ t : Fin cfg1.N, (cfg1.win 5).flush t = true ∧ i ∈ ((cfg1.win 5).blk t).view.set := by
  have hi0 : (i 0).val < 50000 := (i 0).isLt
  have hi1 : (i 1).val < 256 := (i 1).isLt
  have hN : cfg1.N = 25 := N_1
  obtain ⟨t, ht⟩ : ∃ t : Fin cfg1.N, t.val = (i 0).val / 2000 := ⟨⟨(i 0).val / 2000, by rw [hN]; omega⟩, rfl⟩
  refine ⟨t, flush1_5 t, ?_⟩
  rw [mem_blk]
  obtain ⟨-, -, -, -, -, -, -, -, -, -, e0, e1⟩ := idx_facts t
  intro a
  match a with
  | ⟨0, _⟩ => show win1_5.index t (0 : Fin 2) * 2000 ≤ (i 0).val ∧ (i 0).val < win1_5.index t (0 : Fin 2) * 2000 + 2000; rw [e0, ht]; omega
  | ⟨1, _⟩ => show win1_5.index t (1 : Fin 2) * 256 ≤ (i 1).val ∧ (i 1).val < win1_5.index t (1 : Fin 2) * 256 + 256; rw [e1]; omega

/-- THE RESULT ARRAY after the region: the hidden layer of the arrays the region found. -/
theorem final (c : Dev nD) (b : FVec Ideal S256 .f32)
    (hb : ∀ q : Fin 256, (V c main_v35 : FVec Ideal S1x256 .f32) (ix2 0 q) = b (ix1 q)) :
    (dat1 V c).arrAt 5 cfg1.N = G V c b :=
  (dat1 V c).arrAt_eq_of_cover 5 (G V c b) (fun t _ => flushed_eq V c b hb t) cover

end Cert.KernelIdeal.Region1

end
-- ==== Proof.Region2.lean ====
/-
  The last layer's pallas_call, read as a value: whatever arrays the region finds, its result array ends holding the
  affine layer of them, 128 columns wide.

  As in the two calls before it the grid has 25 points; point `t` sees rows `2000 t … 2000 t + 1999` of the features
  and of their neighbourhood means, the two 256 × 128 weight matrices and the bias row whole, and writes rows
  `2000 t … 2000 t + 1999` of the result.  What it writes at row `p`, column `q` of its block is the layer at row
  `2000 t + p`, column `q` of the whole arrays; there is no clamp.  Every point's block is a block of ONE function of
  the arrays, and the 25 blocks cover the result.
-/
import proofs.«155536_j61967788146768_1_alg».proof.Proof.KernelIdealFrame
import proofs.«155536_j61967788146768_1_alg».proof.Proof.Payload
import proofs.«155536_j61967788146768_1_alg».proof.Proof.Layer
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen Cert.KernelIdeal.GenP

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows (features, means, result) are at block `t`, the
    weights and the bias at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The feature block at point `t` is rows `2000 t …` of the feature array. -/
theorem blkH_apply (c : Dev nD) (t : Fin cfg2.N) (x : S2000x256.Idx) (k : S50000x256.Idx)
    (hk0 : (k 0).val = 2000 * t.val + (x 0).val) (hk1 : (k 1).val = (x 1).val) :
    (iblk2 V c 0 t : Vec Ideal S2000x256 .f32) x = (V c main_v36 : FVec Ideal S50000x256 .f32) k := by
  obtain ⟨e0, e1, -⟩ := idx_facts t
  unfold iblk2
  rw [View.read_apply]
  refine congrArg (V c main_v36 : FVec Ideal S50000x256 .f32) (funext fun a => Fin.ext ?_)
  match a with
  | ⟨0, _⟩ => show win2_0.index t (0 : Fin 2) * 2000 + 1 * (x 0).val = (k 0).val; rw [e0, hk0]; omega
  | ⟨1, _⟩ => show win2_0.index t (1 : Fin 2) * 256 + 1 * (x 1).val = (k 1).val; rw [e1, hk1]; omega

/-- The block of neighbourhood means at point `t` is rows `2000 t …` of their array. -/
theorem blkA_apply (c : Dev nD) (t : Fin cfg2.N) (x : S2000x256.Idx) (k : S50000x256.Idx)
    (hk0 : (k 0).val = 2000 * t.val + (x 0).val) (hk1 : (k 1).val = (x 1).val) :
    (iblk2 V c 1 t : Vec Ideal S2000x256 .f32) x = (V c main_v48 : FVec Ideal S50000x256 .f32) k := by
  obtain ⟨-, -, e0, e1, -⟩ := idx_facts t
  unfold iblk2
  rw [View.read_apply]
  refine congrArg (V c main_v48 : FVec Ideal S50000x256 .f32) (funext fun a => Fin.ext ?_)
  match a with
  | ⟨0, _⟩ => show win2_1.index t (0 : Fin 2) * 2000 + 1 * (x 0).val = (k 0).val; rw [e0, hk0]; omega
  | ⟨1, _⟩ => show win2_1.index t (1 : Fin 2) * 256 + 1 * (x 1).val = (k 1).val; rw [e1, hk1]; omega

/-- Each point sees the first weight matrix whole … -/
theorem blkWs_apply (c : Dev nD) (t : Fin cfg2.N) (x : S256x128.Idx) :
    (iblk2 V c 2 t : Vec Ideal S256x128 .f32) x = (V c main_arg9 : FVec Ideal S256x128 .f32) x := by
  obtain ⟨-, -, -, -, e0, e1, -⟩ := idx_facts t
  unfold iblk2
  rw [View.read_apply]
  refine congrArg (V c main_arg9 : FVec Ideal S256x128 .f32) (funext fun a => Fin.ext ?_)
  match a with
  | ⟨0, _⟩ => show win2_2.index t (0 : Fin 2) * 256 + 1 * (x 0).val = (x 0).val; rw [e0]; omega
  | ⟨1, _⟩ => show win2_2.index t (1 : Fin 2) * 128 + 1 * (x 1).val = (x 1).val; rw [e1]; omega

/-- … the second weight matrix whole … -/
theorem blkWn_apply (c : Dev nD) (t : Fin cfg2.N) (x : S256x128.Idx) :
    (iblk2 V c 3 t : Vec Ideal S256x128 .f32) x = (V c main_arg10 : FVec Ideal S256x128 .f32) x := by
  obtain ⟨-, -, -, -, -, -, e0, e1, -⟩ := idx_facts t
  unfold iblk2
  rw [View.read_apply]
  refine congrArg (V c main_arg10 : FVec Ideal S256x128 .f32) (funext fun a => Fin.ext ?_)
  match a with
  | ⟨0, _⟩ => show win2_3.index t (0 : Fin 2) * 256 + 1 * (x 0).val = (x 0).val; rw [e0]; omega
  | ⟨1, _⟩ => show win2_3.index t (1 : Fin 2) * 128 + 1 * (x 1).val = (x 1).val; rw [e1]; omega

/-- … and the bias row whole. -/
theorem blkB_apply (c : Dev nD) (t : Fin cfg2.N) (x : S1x128.Idx) :
    (iblk2 V c 4 t : Vec Ideal S1x128 .f32) x = (V c main_v49 : FVec Ideal S1x128 .f32) x := by
  obtain ⟨-, -, -, -, -, -, -, -, e0, e1, -⟩ := idx_facts t
  unfold iblk2
  rw [View.read_apply]
  refine congrArg (V c main_v49 : FVec Ideal S1x128 .f32) (funext fun a => Fin.ext ?_)
  match a with
  | ⟨0, _⟩ => show win2_4.index t (0 : Fin 2) * 1 + 1 * (x 0).val = (x 0).val; rw [e0]; omega
  | ⟨1, _⟩ => show win2_4.index t (1 : Fin 2) * 128 + 1 * (x 1).val = (x 1).val; rw [e1]; omega

/-- The result array as ONE function of the arrays the region finds: the affine layer of the features, the means, the
    two weight matrices and the bias `b` whose row the region finds at its fifth operand. -/
abbrev G (c : Dev nD) (b : FVec Ideal S128 .f32) : Buf (Elt Ideal) ((c : Thread nD τ).loc main_v50) :=
  Sage.conv (R := 50000) (K := 256) (N := 128) (V c main_v36) (V c main_v48) (V c main_arg9) (V c main_arg10) b

/-- WHAT POINT `t` WRITES BACK is block `t` of `G`. -/
theorem flushed_eq (c : Dev nD) (b : FVec Ideal S128 .f32)
    (hb : ∀ q : Fin 128, (V c main_v49 : FVec Ideal S1x128 .f32) (ix2 0 q) = b (ix1 q)) (t : Fin cfg2.N) :
    (dat2 V c).flushed 5 t = ((cfg2.win 5).blk t).view.read (Elt Ideal) (G V c b) := by
  show (cfg2.win 5).cut (grid2.coords t) ((dat2 V c).after 5 t) = _
  rw [after2_5]
  unfold out2_5
  rw [View.canon_unit_zero hz]
  simp only [View.ld_unit_zero (S := S2000x256) hz, View.ld_unit_zero (S := S256x128) hz, View.ld_unit_zero (S := S1x128) hz]
  obtain ⟨-, -, -, -, -, -, -, -, -, -, e0, e1⟩ := idx_facts t
  funext j
  obtain ⟨p, q, rfl⟩ : ∃ (p : Fin 2000) (q : Fin 128), j = ix2 p q := ⟨j 0, j 1, eq_ix2 j⟩
  show k2_pay1 (iblk2 V c 0 t) (iblk2 V c 1 t) (iblk2 V c 2 t) (iblk2 V c 3 t) (iblk2 V c 4 t) (ix2 p q)
      = G V c b (((cfg2.win 5).blk t).view.emb (ix2 p q))
  refine (Body.pay2_apply (iblk2 V c 0 t) (iblk2 V c 1 t) (iblk2 V c 2 t) (iblk2 V c 3 t) (iblk2 V c 4 t) p q).trans ?_
  have hi0 : ((((cfg2.win 5).blk t).view.emb (ix2 p q)) 0).val = 2000 * t.val + p.val := by
    show win2_5.index t (0 : Fin 2) * 2000 + 1 * p.val = _; rw [e0]; omega
  have hi1 : ((((cfg2.win 5).blk t).view.emb (ix2 p q)) 1).val = q.val := by
    show win2_5.index t (1 : Fin 2) * 128 + 1 * q.val = _; rw [e1]; omega
  generalize ((cfg2.win 5).blk t).view.emb (ix2 p q) = i at hi0 hi1 ⊢
  obtain ⟨r, q', rfl⟩ : ∃ (r : Fin 50000) (q' : Fin 128), i = ix2 r q' := ⟨i 0, i 1, eq_ix2 i⟩
  have hr : r.val = 2000 * t.val + p.val := hi0
  obtain rfl : q' = q := Fin.ext hi1
  show _ = Sage.conv (R := 50000) (K := 256) (N := 128) (V c main_v36) (V c main_v48) (V c main_arg9) (V c main_arg10) b (ix2 r q')
  rw [Sage.conv_apply]
  refine congrArg₂ (· + ·) (congrArg₂ (· + ·) (Finset.sum_congr rfl fun k _ => ?_) (Finset.sum_congr rfl fun k _ => ?_)) ?_
  · exact congrArg₂ (· * ·) (blkH_apply V c t (ix2 p k) (ix2 r k) hr rfl) (blkWs_apply V c t (ix2 k q'))
  · exact congrArg₂ (· * ·) (blkA_apply V c t (ix2 p k) (ix2 r k) hr rfl) (blkWn_apply V c t (ix2 k q'))
  · exact (blkB_apply V c t (ix2 0 q')).trans (hb q')

/-- An index of the result array is in point `t`'s block iff each coordinate is in the block's range on its axis. -/
theorem mem_blk (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v50).slice (win2_5.rect t)).set ↔ _
  rw [View.set_slice_whole, Rect.mem_set_unit]
  exact Iff.rfl

/-- Row `r` of the result is written by point `r / 2000`: the 25 blocks cover the array. -/
theorem cover (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 25 := N_2
  obtain ⟨t, ht⟩ : ∃ t : Fin cfg2.N, t.val = (i 0).val / 2000 := ⟨⟨(i 0).val / 2000, by rw [hN]; omega⟩, rfl⟩
  refine ⟨t, flush2_5 t, ?_⟩
  rw [mem_blk]
  obtain ⟨-, -, -, -, -, -, -, -, -, -, e0, e1⟩ := idx_facts t
  intro a
  match a with
  | ⟨0, _⟩ => show win2_5.index t (0 : Fin 2) * 2000 ≤ (i 0).val ∧ (i 0).val < win2_5.index t (0 : Fin 2) * 2000 + 2000; rw [e0, ht]; omega
  | ⟨1, _⟩ => show win2_5.index t (1 : Fin 2) * 128 ≤ (i 1).val ∧ (i 1).val < win2_5.index t (1 : Fin 2) * 128 + 128; rw [e1]; omega

/-- THE RESULT ARRAY after the region: the affine layer of the arrays the region found. -/
theorem final (c : Dev nD) (b : FVec Ideal S128 .f32)
    (hb : ∀ q : Fin 128, (V c main_v49 : FVec Ideal S1x128 .f32) (ix2 0 q) = b (ix1 q)) :
    (dat2 V c).arrAt 5 cfg2.N = G V c b :=
  (dat2 V c).arrAt_eq_of_cover 5 (G V c b) (fun t _ => flushed_eq V c b hb t) cover

end Cert.KernelIdeal.Region2

end
-- ==== Proof.Net.lean ====
/-
  The network on the extended reals with each layer in closed form: the features after the first and the second hidden
  layer and the output, each the layer function (sums of products, entry by entry) of the features before it and of
  their neighbourhood means.
-/
import proofs.«155536_j61967788146768_1_alg».proof.Proof.Spec
import proofs.«155536_j61967788146768_1_alg».proof.Proof.Layer

noncomputable section

namespace Cert.Sage

open Cert.ReferenceIdeal Idealize.ShloMosaic

/-- The features after the first hidden layer. -/
def h1 (x : (⟨S50000x256, .f32⟩ : BufTy).Contents (Elt Ideal)) (src dst : (⟨S800000, .i32⟩ : BufTy).Contents (Elt Ideal))
    (W1s W1n : (⟨S256x256, .f32⟩ : BufTy).Contents (Elt Ideal)) (b1 : (⟨S256, .f32⟩ : BufTy).Contents (Elt Ideal)) : (⟨S50000x256, .f32⟩ : BufTy).Contents (Elt Ideal) :=
  convRelu (R := 50000) (K := 256) (N := 256) x (meanOf (F := Ideal) x src dst) W1s W1n b1

/-- The features after the second hidden layer. -/
def h2 (x : (⟨S50000x256, .f32⟩ : BufTy).Contents (Elt Ideal)) (src dst : (⟨S800000, .i32⟩ : BufTy).Contents (Elt Ideal))
    (W1s W1n : (⟨S256x256, .f32⟩ : BufTy).Contents (Elt Ideal)) (b1 : (⟨S256, .f32⟩ : BufTy).Contents (Elt Ideal))
    (W2s W2n : (⟨S256x256, .f32⟩ : BufTy).Contents (Elt Ideal)) (b2 : (⟨S256, .f32⟩ : BufTy).Contents (Elt Ideal)) : (⟨S50000x256, .f32⟩ : BufTy).Contents (Elt Ideal) :=
  convRelu (R := 50000) (K := 256) (N := 256) (h1 x src dst W1s W1n b1) (meanOf (F := Ideal) (h1 x src dst W1s W1n b1) src dst) W2s W2n b2

/-- The network's output. -/
def out (x : (⟨S50000x256, .f32⟩ : BufTy).Contents (Elt Ideal)) (src dst : (⟨S800000, .i32⟩ : BufTy).Contents (Elt Ideal))
    (W1s W1n : (⟨S256x256, .f32⟩ : BufTy).Contents (Elt Ideal)) (b1 : (⟨S256, .f32⟩ : BufTy).Contents (Elt Ideal))
    (W2s W2n : (⟨S256x256, .f32⟩ : BufTy).Contents (Elt Ideal)) (b2 : (⟨S256, .f32⟩ : BufTy).Contents (Elt Ideal))
    (W3s W3n : (⟨S256x128, .f32⟩ : BufTy).Contents (Elt Ideal)) (b3 : (⟨S128, .f32⟩ : BufTy).Contents (Elt Ideal)) : (⟨S50000x128, .f32⟩ : BufTy).Contents (Elt Ideal) :=
  conv (R := 50000) (K := 256) (N := 128) (h2 x src dst W1s W1n b1 W2s W2n b2) (meanOf (F := Ideal) (h2 x src dst W1s W1n b1 W2s W2n b2) src dst) W3s W3n b3

end Cert.Sage

end
-- ==== Proof.KernelValue.lean ====
/-
  The kernel program's result, named: the three calls, one after the other, leave the features after the first hidden
  layer, the features after the second, and the network's output.

  Each call's result is the layer function of the arrays it finds (the three modules on the calls); the arrays it finds
  are arguments, the call before's result and that result's neighbourhood means (the module on the boundaries); so the
  three results are the network's three stages in closed form, by substitution.
-/
import proofs.«155536_j61967788146768_1_alg».proof.Proof.KernelIdealRun
import proofs.«155536_j61967788146768_1_alg».proof.Proof.Walk
import proofs.«155536_j61967788146768_1_alg».proof.Proof.Region0
import proofs.«155536_j61967788146768_1_alg».proof.Proof.Region1
import proofs.«155536_j61967788146768_1_alg».proof.Proof.Region2
import proofs.«155536_j61967788146768_1_alg».proof.Proof.Net

set_option maxRecDepth 16384

noncomputable section

open Idealize.ShloMosaic Idealize.ShloMosaic.TcCoe Idealize.SL.Sem Idealize.ShloMosaic.ValueIdx

namespace Cert.KernelIdeal.Value

open Cert.KernelIdeal Cert.KernelIdeal.Gen Cert.KernelIdeal.GenP

variable (m : (ℓ : Loc nD τ sig) → Buf (Elt Ideal) ℓ) (ρ : Dev nD → PrngReg)

/-- After the first call its result array holds the features after the first hidden layer. -/
theorem feat1 (c : Dev nD) : W2 m ρ c (Proc.devRef .tc main_v22) = Sage.h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (Walk.r0_out m ρ c).trans ((Region0.final (V1 m ρ) c (m ((c : Thread nD τ).loc main_arg5)) (fun q => Walk.s0_bias m ρ c q)).trans (by
    show Sage.convRelu (R := 50000) (K := 256) (N := 256) (W1 m ρ c (Proc.devRef .tc main_arg0)) (W1 m ρ c (Proc.devRef .tc main_v20)) (W1 m ρ c (Proc.devRef .tc main_arg3)) (W1 m ρ c (Proc.devRef .tc main_arg4)) (m ((c : Thread nD τ).loc main_arg5)) = _
    rw [Walk.s0_arg0, Walk.s0_mean, Walk.s0_arg3, Walk.s0_arg4]
    rfl))

/-- After the second call its result array holds the features after the second hidden layer. -/
theorem feat2 (c : Dev nD) : W4 m ρ c (Proc.devRef .tc main_v36) = Sage.h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (Walk.r1_out m ρ c).trans ((Region1.final (V3 m ρ) c (m ((c : Thread nD τ).loc main_arg8)) (fun q => (Walk.s1_bias m ρ c q).trans (by rw [Walk.at2_arg8]))).trans (by
    show Sage.convRelu (R := 50000) (K := 256) (N := 256) (W3 m ρ c (Proc.devRef .tc main_v22)) (W3 m ρ c (Proc.devRef .tc main_v34)) (W3 m ρ c (Proc.devRef .tc main_arg6)) (W3 m ρ c (Proc.devRef .tc main_arg7)) (m ((c : Thread nD τ).loc main_arg8)) = _
    rw [Walk.s1_v22, Walk.s1_mean, Walk.at3_arg6, Walk.at3_arg7, feat1, Walk.at2_arg1, Walk.at2_arg2, Walk.at2_degInv]
    rfl))

/-- After the last call its result array holds the network's output. -/
theorem result (c : Dev nD) : W6 m ρ c (Proc.devRef .tc main_v50) = Sage.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (Walk.r2_out m ρ c).trans ((Region2.final (V5 m ρ) c (m ((c : Thread nD τ).loc main_arg11)) (fun q => (Walk.s2_bias m ρ c q).trans (by rw [Walk.at4_arg11]))).trans (by
    show Sage.conv (R := 50000) (K := 256) (N := 128) (W5 m ρ c (Proc.devRef .tc main_v36)) (W5 m ρ c (Proc.devRef .tc main_v48)) (W5 m ρ c (Proc.devRef .tc main_arg9)) (W5 m ρ c (Proc.devRef .tc main_arg10)) (m ((c : Thread nD τ).loc main_arg11)) = _
    rw [Walk.s2_v36, Walk.s2_mean, Walk.at5_arg9, Walk.at5_arg10, feat2, Walk.at4_arg1, Walk.at4_arg2, Walk.at4_degInv]
    rfl))

/-- THE RUN, READ: every weakly fair execution of the kernel program terminates, nothing faulting, with the result array
    at the network's output of the arguments and the arguments unchanged. -/
theorem run : θ_run defs (onTc (τ := τ) (main (F := Ideal))) ⟨m, fun _ => 0, ρ⟩ (fun r => ∀ c : Dev nD,
      r.2.mem ((c.tc : Thread nD τ).loc main_v50) = Sage.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (result m ρ c), (h c).2⟩) (run_result m ρ)

end Cert.KernelIdeal.Value

end
-- ==== Proof.LibPlainDot.lean ====
/-
  The host's plain matrix product read at an entry.  For the dimension numbers of an `M × K` by `K × N` product
  (`DotDims.plain`), jnp's `dot_general` is, at the extended reals and at row `r`, column `c`, the sum over
  `k : Fin K` of the left operand at `(r, k)` times the right at `(k, c)`: the same sum a `tpu.matmul` into the
  zero splat computes.  Nothing here names a program.
-/
import proofs.«155536_j61967788146768_1_alg».proof.Proof.LibPlainMatmul

namespace Cert.PlainMatmul

open Idealize.ShloMosaic Idealize.ShloMosaic.ValueIdx

/-- A plain host `dot_general`, at entry `(r, c)`, is `∑ k, a (r, k) * b (k, c)` on the extended reals. -/
theorem dotGeneral_plain_apply {M K N : ℕ} {φ₁ φ₂ : FTy}
    (a : FVec Ideal ⟨2, ![M, K]⟩ φ₁) (b : FVec Ideal ⟨2, ![K, N]⟩ φ₂) (prec : Option ContractPrecision) (r : Fin M) (c : Fin N) :
    Host.dotGeneral (DotDims.plain M K N) prec a b (ix2 r c) = ∑ k : Fin K, a (ix2 r k) * b (ix2 k c) := by
  show FloatOps.dotGeneral (DotDims.plain M K N) prec .single a b (ix2 r c) = _
  rw [Ideal.dotGeneral_apply, ← Equiv.sum_comp (contrEquiv1 (DotDims.plain M K N) K rfl rfl).symm]
  refine Finset.sum_congr rfl fun k _ => ?_
  rw [lhsIdx_plain, rhsIdx_plain]

end Cert.PlainMatmul
-- ==== Proof.RefValue.lean ====
/-
  The reference computes the network: its result term is the composition of the host's layers, and on the extended
  reals each host layer is the layer function in closed form — jnp's matrix product a sum of products over the 256
  input features, the bias broadcast to every row read at its column, the clamp a maximum with the value of the zero word.
-/
import proofs.«155536_j61967788146768_1_alg».proof.Proof.Gen.ReferenceIdeal.Run
import proofs.«155536_j61967788146768_1_alg».proof.Proof.Net
import proofs.«155536_j61967788146768_1_alg».proof.Proof.LibPlainDot
import Idealize.ShloMosaic.Lib.Pipeline.Value

set_option maxRecDepth 16384

noncomputable section

namespace Cert.ReferenceIdeal.RefValue

open Cert.ReferenceIdeal Cert.ReferenceIdeal.Gen Cert.ReferenceIdeal.Value Idealize.ShloMosaic Idealize.ShloMosaic.TcCoe
open Idealize.SL.Sem Idealize.ShloMosaic.ValueIdx Cert.PlainMatmul

/-- The reference's result is the network of its arguments (for any float family: the same operations in the same order). -/
theorem res_eq {F : FTy → Type} [FloatOps F] (m : (ℓ : Loc nD τ sig) → Buf (Elt F) ℓ) (c : Dev nD) :
    res_main_v64 (F := F) m c = Sage.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold res_main_v64
  rfl

/-- The host's products are plain ones: 50000 × 256 by 256 × 256 … -/
theorem dot256 : dot_S50000x256_S256x256_S50000x256_1_0_0_1_n_n = DotDims.plain 50000 256 256 := rfl
/-- … and 50000 × 256 by 256 × 128. -/
theorem dot128 : dot_S50000x256_S256x128_S50000x128_1_0_0_1_n_n = DotDims.plain 50000 256 128 := rfl

/-- The bias made a row and then repeated down the rows, at an entry: the bias at that column. -/
theorem bias256 (b : FVec Ideal S256 .f32) (r : Fin 50000) (q : Fin 256) :
    broadcastInDim S50000x256 ![0, 1] bcast_S1x256_S50000x256_0_1 (broadcastInDim S1x256 ![1] bcast_S256_S1x256_1 b) (ix2 r q) = b (ix1 q) := by
  rw [broadcastInDim_apply _ bcast_S1x256_S50000x256_0_1 _ (ix2 r q) (ix2 0 q) (fun a => match a with
      | ⟨0, _⟩ => by show (0 : ℕ) = if (1 : ℕ) = 1 then 0 else _; rw [if_pos rfl]
      | ⟨1, _⟩ => by show q.val = if (256 : ℕ) = 1 then 0 else q.val; rw [if_neg (by decide)])]
  exact broadcastInDim_apply _ bcast_S256_S1x256_1 b (ix2 0 q) (ix1 q) (fun a => match a with
      | ⟨0, _⟩ => by show q.val = if (256 : ℕ) = 1 then 0 else q.val; rw [if_neg (by decide)])

theorem bias128 (b : FVec Ideal S128 .f32) (r : Fin 50000) (q : Fin 128) :
    broadcastInDim S50000x128 ![0, 1] bcast_S1x128_S50000x128_0_1 (broadcastInDim S1x128 ![1] bcast_S128_S1x128_1 b) (ix2 r q) = b (ix1 q) := by
  rw [broadcastInDim_apply _ bcast_S1x128_S50000x128_0_1 _ (ix2 r q) (ix2 0 q) (fun a => match a with
      | ⟨0, _⟩ => by show (0 : ℕ) = if (1 : ℕ) = 1 then 0 else _; rw [if_pos rfl]
      | ⟨1, _⟩ => by show q.val = if (128 : ℕ) = 1 then 0 else q.val; rw [if_neg (by decide)])]
  exact broadcastInDim_apply _ bcast_S128_S1x128_1 b (ix2 0 q) (ix1 q) (fun a => match a with
      | ⟨0, _⟩ => by show q.val = if (128 : ℕ) = 1 then 0 else q.val; rw [if_neg (by decide)])

/-- A hidden layer as the host computes it is the layer function, entry by entry. -/
theorem hidden_eq (h a : FVec Ideal S50000x256 .f32) (Ws Wn : FVec Ideal S256x256 .f32) (b : FVec Ideal S256 .f32) :
    Sage.hidden (F := Ideal) h a Ws Wn b = Sage.convRelu (R := 50000) (K := 256) (N := 256) h a Ws Wn b := by
  funext i
  obtain ⟨r, q, rfl⟩ : ∃ (r : Fin 50000) (q : Fin 256), i = ix2 r q := ⟨i 0, i 1, eq_ix2 i⟩
  unfold Sage.hidden
  rw [Sage.convRelu_apply, maximumf_apply, addf_apply, addf_apply, dot256, dotGeneral_plain_apply, dotGeneral_plain_apply, bias256]
  rfl

/-- The output layer as the host computes it is the affine layer function. -/
theorem output_eq (h a : FVec Ideal S50000x256 .f32) (Ws Wn : FVec Ideal S256x128 .f32) (b : FVec Ideal S128 .f32) :
    Sage.output (F := Ideal) h a Ws Wn b = Sage.conv (R := 50000) (K := 256) (N := 128) h a Ws Wn b := by
  funext i
  obtain ⟨r, q, rfl⟩ : ∃ (r : Fin 50000) (q : Fin 128), i = ix2 r q := ⟨i 0, i 1, eq_ix2 i⟩
  unfold Sage.output
  rw [Sage.conv_apply, addf_apply, addf_apply, dot128, dotGeneral_plain_apply, dotGeneral_plain_apply, bias128]

/-- So on the extended reals the network is its closed form. -/
theorem net_eq (x : (⟨S50000x256, .f32⟩ : BufTy).Contents (Elt Ideal)) (src dst : (⟨S800000, .i32⟩ : BufTy).Contents (Elt Ideal))
    (W1s W1n : (⟨S256x256, .f32⟩ : BufTy).Contents (Elt Ideal)) (b1 : (⟨S256, .f32⟩ : BufTy).Contents (Elt Ideal))
    (W2s W2n : (⟨S256x256, .f32⟩ : BufTy).Contents (Elt Ideal)) (b2 : (⟨S256, .f32⟩ : BufTy).Contents (Elt Ideal))
    (W3s W3n : (⟨S256x128, .f32⟩ : BufTy).Contents (Elt Ideal)) (b3 : (⟨S128, .f32⟩ : BufTy).Contents (Elt Ideal)) :
    Sage.net (F := Ideal) x src dst W1s W1n b1 W2s W2n b2 W3s W3n b3 = Sage.out x src dst W1s W1n b1 W2s W2n b2 W3s W3n b3 := by
  unfold Sage.net Sage.feat2 Sage.feat1 Sage.out Sage.h2 Sage.h1
  simp only [hidden_eq, output_eq]

end Cert.ReferenceIdeal.RefValue

end
-- ==== Proof.lean ====
/-
  Three layers of a graph convolution with mean aggregation, a Pallas kernel per layer against plain jnp.

  Both programs compute, for node features `x`, edges `src → dst` and three layers' weights and biases,

      h₁ = max(x · W₁ˢ + mean(x) · W₁ⁿ + b₁, 0),   h₂ = max(h₁ · W₂ˢ + mean(h₁) · W₂ⁿ + b₂, 0),
      out = h₂ · W₃ˢ + mean(h₂) · W₃ⁿ + b₃,

  where `mean(h)` adds row `src e` of `h` into row `dst e` for every edge `e` and divides row `n` by the larger of the
  in-degree of `n` and one.  The kernel program computes the means with the very same host operations and does each
  layer's two matrix products, the bias and the clamp in a pallas_call over 25 blocks of 2000 rows, rounding the
  operands of the products to bf16; the reference does them whole with jnp.  On the extended reals the rounding is the
  identity and a product into a zero accumulator is the sum of products jnp's is, so row by row, column by column both
  compute one expression: no law of arithmetic is used beyond reading each operation at an entry, and the
  precondition that the inputs are finite is never opened.

  Modules: Layer (the layer function at an entry), Spec and Net (the network, with the host's operations and in closed
  form), Payload (what a kernel body stores, at an entry), Region0 … Region2 (each call's result array as the layer of
  the arrays it finds: the blocks cover it), Walk (the arrays at each boundary of @main, named), KernelValue (the kernel
  program's result is the network's output), RefValue (so is the reference's).  The frames are the launch theorem's.
-/
import proofs.«155536_j61967788146768_1_alg».proof.Defs
import proofs.«155536_j61967788146768_1_alg».proof.Proof.Gen.Kernel
import proofs.«155536_j61967788146768_1_alg».proof.Proof.KernelFrame
import proofs.«155536_j61967788146768_1_alg».proof.Proof.Gen.KernelIdeal
import proofs.«155536_j61967788146768_1_alg».proof.Proof.KernelIdealFrame
import proofs.«155536_j61967788146768_1_alg».proof.Proof.Gen.ReferenceIdeal
import proofs.«155536_j61967788146768_1_alg».proof.Proof.Gen.Pre_finite_inputs
import proofs.«155536_j61967788146768_1_alg».proof.Proof.Gen.ReferenceIdeal.Run
import proofs.«155536_j61967788146768_1_alg».proof.Proof.KernelValue
import proofs.«155536_j61967788146768_1_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed runs to the end and leaves its arguments alone. -/
theorem frame_k : Cert.frame_Kernel := fun m ρ _ => Cert.Kernel.GenP.frame m ρ

/-- So does its idealization. -/
theorem frame_ki : Cert.frame_KernelIdeal := fun m ρ _ => Cert.KernelIdeal.GenP.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- On the extended reals, from memories agreeing on the arguments, both programs end with the network's output of
    those arguments. -/
theorem algebraic : Cert.algebraic_KernelIdeal_ReferenceIdeal := by
  intro m ρ m' ρ' _ hagree
  refine ⟨fun c => Cert.Sage.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.res_eq, Cert.ReferenceIdeal.RefValue.net_eq]
  obtain ⟨a0, a1, a2, a3, a4, a5, a6, a7, a8, a9, a10, a11⟩ := hagree c
  rw [a0, a1, a2, a3, a4, a5, a6, a7, a8, a9, a10, a11]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
